-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S5000x128 : Shape := ⟨2, ![5000, 128]⟩
abbrev S1600000x128 : Shape := ⟨2, ![1600000, 128]⟩
abbrev S1x128 : Shape := ⟨2, ![1, 128]⟩
abbrev S100000x1 : Shape := ⟨2, ![100000, 1]⟩
abbrev S5000x1 : Shape := ⟨2, ![5000, 1]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 108
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1x128, .f32⟩
  | .hbm, ⟨56, _⟩ => ⟨S100000x1, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S100000x1, .f32⟩
  | .hbm, ⟨72, _⟩ => ⟨S1x128, .f32⟩
  | .hbm, ⟨73, _⟩ => ⟨S100000x128, .f32⟩
  | .hbm, ⟨74, _⟩ => ⟨S100000x64, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x64, .f32⟩
  | .hbm, ⟨84, _⟩ => ⟨S_, .f32⟩
  | .hbm, ⟨85, _⟩ => ⟨S100000x64, .f32⟩
  | .hbm, ⟨86, _⟩ => ⟨S1600000x1, .i32⟩
  | .hbm, ⟨87, _⟩ => ⟨S100000x64, .f32⟩
  | .hbm, ⟨88, _⟩ => ⟨S_, .f32⟩
  | .hbm, ⟨89, _⟩ => ⟨S1x64, .f32⟩
  | .hbm, ⟨90, _⟩ => ⟨S100000x1, .f32⟩
  | .hbm, ⟨91, _⟩ => ⟨S100000x64, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x64, .f32⟩
  | .hbm, ⟨101, _⟩ => ⟨S_, .f32⟩
  | .hbm, ⟨102, _⟩ => ⟨S100000x64, .f32⟩
  | .hbm, ⟨103, _⟩ => ⟨S1600000x1, .i32⟩
  | .hbm, ⟨104, _⟩ => ⟨S100000x64, .f32⟩
  | .hbm, ⟨105, _⟩ => ⟨S100000x1, .f32⟩
  | .hbm, ⟨106, _⟩ => ⟨S1x64, .f32⟩
  | .hbm, ⟨107, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x1, .f32⟩
  | .local _ .vmem, ⟨27, _⟩ => ⟨S5000x1, .f32⟩
  | .local _ .vmem, ⟨28, _⟩ => ⟨S1x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x1, .f32⟩
  | .local _ .vmem, ⟨34, _⟩ => ⟨S5000x1, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_8 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_10 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_11 : Ref sig .tc := ⟨.hbm, 58, rfl⟩
abbrev main_v35 : Ref sig .tc := ⟨.hbm, 59, rfl⟩
abbrev main_v36 : Ref sig .tc := ⟨.hbm, 60, rfl⟩
abbrev main_c_12 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_13 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_14 : Ref sig .tc := ⟨.hbm, 75, rfl⟩
abbrev main_v49 : Ref sig .tc := ⟨.hbm, 76, rfl⟩
abbrev main_v50 : Ref sig .tc := ⟨.hbm, 77, rfl⟩
abbrev main_c_15 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_16 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_17 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_18 : Ref sig .tc := ⟨.hbm, 92, rfl⟩
abbrev main_v62 : Ref sig .tc := ⟨.hbm, 93, rfl⟩
abbrev main_v63 : Ref sig .tc := ⟨.hbm, 94, rfl⟩
abbrev main_c_19 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_20 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  bcast_S_S1x128 : S_.BroadcastsInDim S1x128 (![] : Fin 0 → Fin S1x128.rank)
  shapeCasts_S100000_S100000x1 : S100000.ShapeCasts S100000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S128_S1x128 : S128.ShapeCasts S1x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S_S1x64 : S_.BroadcastsInDim S1x64 (![] : Fin 0 → Fin S1x64.rank)
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S64_S1x64 : S64.ShapeCasts S1x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v71) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v73) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S100000x1, .f32⟩
  | 55 => ⟨S100000x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S100000x1, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x64, .f32⟩
  | 80 => ⟨S_, .f32⟩
  | 81 => ⟨S1600000, .f32⟩
  | 82 => ⟨S_, .f32⟩
  | 83 => ⟨S100000, .f32⟩
  | 84 => ⟨S1600000x1, .i32⟩
  | 85 => ⟨S100000, .f32⟩
  | 86 => ⟨S_, .f32⟩
  | 87 => ⟨S100000, .f32⟩
  | 88 => ⟨S1600000x1, .i32⟩
  | 89 => ⟨S100000, .f32⟩
  | 90 => ⟨S_, .f32⟩
  | 91 => ⟨S100000, .f32⟩
  | 92 => ⟨S100000, .i1⟩
  | 93 => ⟨S_, .f32⟩
  | 94 => ⟨S100000, .f32⟩
  | 95 => ⟨S100000, .f32⟩
  | 96 => ⟨S_, .f32⟩
  | 97 => ⟨S_, .f32⟩
  | 98 => ⟨S100000, .f32⟩
  | 99 => ⟨S100000, .f32⟩
  | 100 => ⟨S_, .f32⟩
  | 101 => ⟨S100000, .f32⟩
  | 102 => ⟨S100000, .i1⟩
  | 103 => ⟨S_, .f32⟩
  | 104 => ⟨S100000, .f32⟩
  | 105 => ⟨S100000, .f32⟩
  | 106 => ⟨S_, .f32⟩
  | 107 => ⟨S_, .f32⟩
  | 108 => ⟨S100000, .f32⟩
  | 109 => ⟨S100000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S_, .f32⟩
  | 120 => ⟨S100000x64, .f32⟩
  | 121 => ⟨S1600000x1, .i32⟩
  | 122 => ⟨S100000x64, .f32⟩
  | 123 => ⟨S100000x1, .f32⟩
  | 124 => ⟨S100000x64, .f32⟩
  | 125 => ⟨S100000x64, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x64, .f32⟩
  | 7 => ⟨S_, .f32⟩
  | 8 => ⟨S100000x64, .f32⟩
  | 9 => ⟨S1600000x1, .i32⟩
  | 10 => ⟨S100000x64, .f32⟩
  | 11 => ⟨S100000x1, .f32⟩
  | 12 => ⟨S100000x64, .f32⟩
  | 13 => ⟨S100000x64, .f32⟩
  | 14 => ⟨S1x64, .f32⟩
  | 15 => ⟨S100000x64, .f32⟩
  | 16 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_8 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_10 : Ref sig .tc := ⟨.hbm, 57, rfl⟩
abbrev main_v35 : Ref sig .tc := ⟨.hbm, 58, rfl⟩
abbrev main_v36 : Ref sig .tc := ⟨.hbm, 59, rfl⟩
abbrev main_c_11 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call2_cst : Ref sig .tc := ⟨.hbm, 76, rfl⟩
abbrev main_call2_v0 : Ref sig .tc := ⟨.hbm, 77, rfl⟩
abbrev main_v51 : Ref sig .tc := ⟨.hbm, 78, rfl⟩
abbrev main_v52 : Ref sig .tc := ⟨.hbm, 79, rfl⟩
abbrev main_cst_13 : Ref sig .tc := ⟨.hbm, 80, rfl⟩
abbrev main_v53 : Ref sig .tc := ⟨.hbm, 81, rfl⟩
abbrev main_cst_14 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_15 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_16 : Ref sig .tc := ⟨.hbm, 90, rfl⟩
abbrev main_v60 : Ref sig .tc := ⟨.hbm, 91, rfl⟩
abbrev main_v61 : Ref sig .tc := ⟨.hbm, 92, rfl⟩
abbrev main_cst_17 : Ref sig .tc := ⟨.hbm, 93, rfl⟩
abbrev main_v62 : Ref sig .tc := ⟨.hbm, 94, rfl⟩
abbrev main_v63 : Ref sig .tc := ⟨.hbm, 95, rfl⟩
abbrev main_cst_18 : Ref sig .tc := ⟨.hbm, 96, rfl⟩
abbrev main_call3_v0 : Ref sig .tc := ⟨.hbm, 97, rfl⟩
abbrev main_call3_v1 : Ref sig .tc := ⟨.hbm, 98, rfl⟩
abbrev main_v64 : Ref sig .tc := ⟨.hbm, 99, rfl⟩
abbrev main_cst_19 : Ref sig .tc := ⟨.hbm, 100, rfl⟩
abbrev main_v65 : Ref sig .tc := ⟨.hbm, 101, rfl⟩
abbrev main_v66 : Ref sig .tc := ⟨.hbm, 102, rfl⟩
abbrev main_cst_20 : Ref sig .tc := ⟨.hbm, 103, rfl⟩
abbrev main_v67 : Ref sig .tc := ⟨.hbm, 104, rfl⟩
abbrev main_v68 : Ref sig .tc := ⟨.hbm, 105, rfl⟩
abbrev main_cst_21 : Ref sig .tc := ⟨.hbm, 106, rfl⟩
abbrev main_call4_v0 : Ref sig .tc := ⟨.hbm, 107, rfl⟩
abbrev main_call4_v1 : Ref sig .tc := ⟨.hbm, 108, rfl⟩
abbrev main_v69 : Ref sig .tc := ⟨.hbm, 109, rfl⟩
abbrev main_c_22 : Ref sig .tc := ⟨.hbm, 110, rfl⟩
abbrev main_v70 : Ref sig .tc := ⟨.hbm, 111, rfl⟩
abbrev main_v71 : Ref sig .tc := ⟨.hbm, 112, rfl⟩
abbrev main_c_23 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_24 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_c_25 : Ref sig .tc := ⟨.hbm, 126, rfl⟩
abbrev main_v83 : Ref sig .tc := ⟨.hbm, 127, rfl⟩
abbrev main_v84 : Ref sig .tc := ⟨.hbm, 128, rfl⟩
abbrev main_c_26 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_27 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  What the six regions compute, as whole-array functions over the extended reals.
  A linear layer is the matrix product of the [a, k] features by the [k, n] weight: entry (r, j) is the sum over q of
  x(r, q) · w(q, j). A degree normalisation scales row r of a [a, n] array by the r-th entry of a column [a, 1] and adds a
  bias row [1, n]; the first layer's second normalisation is followed by the rectifier, the larger of the value and zero.
-/
import Idealize.ShloMosaic.Lib.ValueIdx
import Idealize.ShloMosaic.PureOps.Ideal.Laws

open scoped BigOperators

noncomputable section

namespace Cert.Spec

open Idealize.ShloMosaic Idealize.ShloMosaic.ValueIdx

/-- Extended-real arrays of a literal rank-2 shape. -/
abbrev Arr (a b : ℕ) : Type := (⟨2, ![a, b]⟩ : Shape).Idx → EReal

/-- The product of an a × k array by a k × n array. -/
def matProd {a k n : ℕ} (x : Arr a k) (w : Arr k n) : Arr a n :=
  fun i => ∑ q : Fin k, x (ix2 (⟨(i 0).val, (i 0).isLt⟩ : Fin a) q) * w (ix2 q (⟨(i 1).val, (i 1).isLt⟩ : Fin n))

/-- Row r scaled by the column's r-th entry, plus the bias row. -/
def scaleShift {a n : ℕ} (y : Arr a n) (s : Arr a 1) (b : Arr 1 n) : Arr a n :=
  fun i => y i * s (ix2 (⟨(i 0).val, (i 0).isLt⟩ : Fin a) (0 : Fin 1)) + b (ix2 (0 : Fin 1) (⟨(i 1).val, (i 1).isLt⟩ : Fin n))

/-- The same followed by the rectifier: the larger of the value and the float zero. -/
def scaleShiftRelu {a n : ℕ} (y : Arr a n) (s : Arr a 1) (b : Arr 1 n) : Arr a n :=
  fun i => max (scaleShift y s b i) (Ideal.ofBits .f32 0x00000000#32)

theorem matProd_apply {a k n : ℕ} (x : Arr a k) (w : Arr k n) (r : Fin a) (j : Fin n) :
    matProd x w (ix2 r j) = ∑ q : Fin k, x (ix2 r q) * w (ix2 q j) := rfl

theorem scaleShift_apply {a n : ℕ} (y : Arr a n) (s : Arr a 1) (b : Arr 1 n) (r : Fin a) (j : Fin n) :
    scaleShift y s b (ix2 r j) = y (ix2 r j) * s (ix2 r (0 : Fin 1)) + b (ix2 (0 : Fin 1) j) := rfl

theorem scaleShiftRelu_apply {a n : ℕ} (y : Arr a n) (s : Arr a 1) (b : Arr 1 n) (r : Fin a) (j : Fin n) :
    scaleShiftRelu y s b (ix2 r j) = max (y (ix2 r j) * s (ix2 r (0 : Fin 1)) + b (ix2 (0 : Fin 1) j)) (Ideal.ofBits .f32 0x00000000#32) := rfl

end Cert.Spec

end
-- ==== Proof.Host.lean ====
import proofs.«161072_j85074712199280_1_alg».proof.Proof.Gen.KernelIdeal.Frame
import proofs.«161072_j85074712199280_1_alg».proof.Proof.RefRead

set_option maxRecDepth 16384

noncomputable section

namespace Cert.KernelIdeal.Host

open Cert.KernelIdeal Cert.KernelIdeal.Gen Cert.ReferenceIdeal.ReadP
open Idealize.ShloMosaic Idealize.ShloMosaic.TcCoe Idealize.ShloMosaic.Tactic Idealize.SL.Sem Idealize.ShloMosaic.StableHlo

variable {F : FTy → Type} [FloatOps F]

/-- The reference's argument arrays, by their literal types. -/
abbrev Feat (F : FTy → Type) : Type := (⟨Cert.ReferenceIdeal.S100000x128, .f32⟩ : BufTy).Contents (Elt F)
abbrev Inc (F : FTy → Type) : Type := (⟨Cert.ReferenceIdeal.S2x1600000, .i32⟩ : BufTy).Contents (Elt F)
abbrev Wt1 (F : FTy → Type) : Type := (⟨Cert.ReferenceIdeal.S128x128, .f32⟩ : BufTy).Contents (Elt F)
abbrev Bs1 (F : FTy → Type) : Type := (⟨Cert.ReferenceIdeal.S128, .f32⟩ : BufTy).Contents (Elt F)
abbrev Wt2 (F : FTy → Type) : Type := (⟨Cert.ReferenceIdeal.S128x64, .f32⟩ : BufTy).Contents (Elt F)
abbrev Bs2 (F : FTy → Type) : Type := (⟨Cert.ReferenceIdeal.S64, .f32⟩ : BufTy).Contents (Elt F)

variable (W : Valuation τ sig (Elt F))
variable (x0 : Feat F) (x1 : Inc F) (x2 : Wt1 F) (x3 : Bs1 F) (x4 : Wt2 F) (x5 : Bs2 F)

/-! ## Before the first region: the incidence rows, the two degrees and their guarded reciprocals

The four stretches of host operations before region 0 slice the two rows of the incidence array, count each node's and
each hyperedge's incidences by a scatter-add of ones, and take the reciprocal of each count where it is positive, zero
elsewhere. The reference computes the same values by the same operations. -/

/-- The buffer contents when region 0 is entered, from launch contents `W`. -/
abbrev entry : Valuation τ sig (Elt F) := after hostOps0_3 (after hostOps0_2 (after hostOps0_1 (after hostOps0 W)))

/-- The node row of the incidence array. -/
theorem entry_v1 (h : W (Proc.devRef .tc main_arg1) = x1) : entry W (Proc.devRef .tc main_v1) = val_main_v1 x1 := by
  dsimp only [entry]; after_results_simp; rw [h]; rfl

/-- The hyperedge row of the incidence array. -/
theorem entry_v3 (h : W (Proc.devRef .tc main_arg1) = x1) : entry W (Proc.devRef .tc main_v3) = val_main_v3 x1 := by
  dsimp only [entry]; after_results_simp; rw [h]; rfl

/-- The reciprocal node degree, zero at an isolated node. -/
theorem entry_v15 (h : W (Proc.devRef .tc main_arg1) = x1) : entry W (Proc.devRef .tc main_v15) = val_main_v16 x1 := by
  dsimp only [entry]; after_results_simp; rw [h]; rfl

/-- The reciprocal hyperedge degree, zero at an empty hyperedge. -/
theorem entry_v20 (h : W (Proc.devRef .tc main_arg1) = x1) : entry W (Proc.devRef .tc main_v20) = val_main_v21 x1 := by
  dsimp only [entry]; after_results_simp; rw [h]; rfl

/-- No operation before region 0 writes an argument. -/
theorem entry_arg0 : entry W (Proc.devRef .tc main_arg0) = W (Proc.devRef .tc main_arg0) := by
  dsimp only [entry]; after_results_simp
theorem entry_arg2 : entry W (Proc.devRef .tc main_arg2) = W (Proc.devRef .tc main_arg2) := by
  dsimp only [entry]; after_results_simp
theorem entry_arg3 : entry W (Proc.devRef .tc main_arg3) = W (Proc.devRef .tc main_arg3) := by
  dsimp only [entry]; after_results_simp
theorem entry_arg4 : entry W (Proc.devRef .tc main_arg4) = W (Proc.devRef .tc main_arg4) := by
  dsimp only [entry]; after_results_simp
theorem entry_arg5 : entry W (Proc.devRef .tc main_arg5) = W (Proc.devRef .tc main_arg5) := by
  dsimp only [entry]; after_results_simp

/-! ## What every later stretch and region carries along -/

/-- The values computed before region 0 that later stretches read again — the two incidence rows and the two guarded
    reciprocal degrees, as the reference's stages of the incidence array — and the arguments still to be read. -/
structure Carried (W : Valuation τ sig (Elt F)) (x1 : Inc F) (x3 : Bs1 F) (x4 : Wt2 F) (x5 : Bs2 F) : Prop where
  v1 : W (Proc.devRef .tc main_v1) = val_main_v1 x1
  v3 : W (Proc.devRef .tc main_v3) = val_main_v3 x1
  v15 : W (Proc.devRef .tc main_v15) = val_main_v16 x1
  v20 : W (Proc.devRef .tc main_v20) = val_main_v21 x1
  a3 : W (Proc.devRef .tc main_arg3) = x3
  a4 : W (Proc.devRef .tc main_arg4) = x4
  a5 : W (Proc.devRef .tc main_arg5) = x5

variable {W x1 x3 x4 x5}

/-- Region 0 entered: the carried values from launch contents whose incidence, bias and second-weight arrays are the given ones. -/
theorem Carried.entry {W : Valuation τ sig (Elt F)} (h1 : W (Proc.devRef .tc main_arg1) = x1) (h3 : W (Proc.devRef .tc main_arg3) = x3)
    (h4 : W (Proc.devRef .tc main_arg4) = x4) (h5 : W (Proc.devRef .tc main_arg5) = x5) : Carried (entry W) x1 x3 x4 x5 :=
  ⟨entry_v1 W x1 h1, entry_v3 W x1 h1, entry_v15 W x1 h1, entry_v20 W x1 h1,
   (entry_arg3 W).trans h3, (entry_arg4 W).trans h4, (entry_arg5 W).trans h5⟩

/-- None of the four later stretches of host operations writes a carried buffer. -/
theorem Carried.host1 (h : Carried W x1 x3 x4 x5) : Carried (after hostOps1 W) x1 x3 x4 x5 :=
  ⟨by after_results_simp; exact h.v1, by after_results_simp; exact h.v3, by after_results_simp; exact h.v15,
   by after_results_simp; exact h.v20, by after_results_simp; exact h.a3, by after_results_simp; exact h.a4,
   by after_results_simp; exact h.a5⟩
theorem Carried.host2 (h : Carried W x1 x3 x4 x5) : Carried (after hostOps2 W) x1 x3 x4 x5 :=
  ⟨by after_results_simp; exact h.v1, by after_results_simp; exact h.v3, by after_results_simp; exact h.v15,
   by after_results_simp; exact h.v20, by after_results_simp; exact h.a3, by after_results_simp; exact h.a4,
   by after_results_simp; exact h.a5⟩
theorem Carried.host4 (h : Carried W x1 x3 x4 x5) : Carried (after hostOps4 W) x1 x3 x4 x5 :=
  ⟨by after_results_simp; exact h.v1, by after_results_simp; exact h.v3, by after_results_simp; exact h.v15,
   by after_results_simp; exact h.v20, by after_results_simp; exact h.a3, by after_results_simp; exact h.a4,
   by after_results_simp; exact h.a5⟩
theorem Carried.host5 (h : Carried W x1 x3 x4 x5) : Carried (after hostOps5 W) x1 x3 x4 x5 :=
  ⟨by after_results_simp; exact h.v1, by after_results_simp; exact h.v3, by after_results_simp; exact h.v15,
   by after_results_simp; exact h.v20, by after_results_simp; exact h.a3, by after_results_simp; exact h.a4,
   by after_results_simp; exact h.a5⟩

/-- No carried buffer is an array of region 0's windows, so the region's write-backs leave them all; likewise regions 1 to 4. -/
theorem Carried.region0 (c : Dev nD) (A) (h : Carried W x1 x3 x4 x5) : Carried (Pipeline.withArrays spec0 c W A) x1 x3 x4 x5 :=
  ⟨(Pipeline.withArrays_of_ne spec0 c W A main_v1 (by decide)).trans h.v1, (Pipeline.withArrays_of_ne spec0 c W A main_v3 (by decide)).trans h.v3,
   (Pipeline.withArrays_of_ne spec0 c W A main_v15 (by decide)).trans h.v15, (Pipeline.withArrays_of_ne spec0 c W A main_v20 (by decide)).trans h.v20,
   (Pipeline.withArrays_of_ne spec0 c W A main_arg3 (by decide)).trans h.a3, (Pipeline.withArrays_of_ne spec0 c W A main_arg4 (by decide)).trans h.a4,
   (Pipeline.withArrays_of_ne spec0 c W A main_arg5 (by decide)).trans h.a5⟩
theorem Carried.region1 (c : Dev nD) (A) (h : Carried W x1 x3 x4 x5) : Carried (Pipeline.withArrays spec1 c W A) x1 x3 x4 x5 :=
  ⟨(Pipeline.withArrays_of_ne spec1 c W A main_v1 (by decide)).trans h.v1, (Pipeline.withArrays_of_ne spec1 c W A main_v3 (by decide)).trans h.v3,
   (Pipeline.withArrays_of_ne spec1 c W A main_v15 (by decide)).trans h.v15, (Pipeline.withArrays_of_ne spec1 c W A main_v20 (by decide)).trans h.v20,
   (Pipeline.withArrays_of_ne spec1 c W A main_arg3 (by decide)).trans h.a3, (Pipeline.withArrays_of_ne spec1 c W A main_arg4 (by decide)).trans h.a4,
   (Pipeline.withArrays_of_ne spec1 c W A main_arg5 (by decide)).trans h.a5⟩
/-- Region 2 reads the first bias through a reshaped copy, never the argument itself; region 3 reads the second weight and leaves it. -/
theorem Carried.region2 (c : Dev nD) (A) (h : Carried W x1 x3 x4 x5) : Carried (Pipeline.withArrays spec2 c W A) x1 x3 x4 x5 :=
  ⟨(Pipeline.withArrays_of_ne spec2 c W A main_v1 (by decide)).trans h.v1, (Pipeline.withArrays_of_ne spec2 c W A main_v3 (by decide)).trans h.v3,
   (Pipeline.withArrays_of_ne spec2 c W A main_v15 (by decide)).trans h.v15, (Pipeline.withArrays_of_ne spec2 c W A main_v20 (by decide)).trans h.v20,
   (Pipeline.withArrays_of_ne spec2 c W A main_arg3 (by decide)).trans h.a3, (Pipeline.withArrays_of_ne spec2 c W A main_arg4 (by decide)).trans h.a4,
   (Pipeline.withArrays_of_ne spec2 c W A main_arg5 (by decide)).trans h.a5⟩
theorem Carried.region4 (c : Dev nD) (A) (h : Carried W x1 x3 x4 x5) : Carried (Pipeline.withArrays spec4 c W A) x1 x3 x4 x5 :=
  ⟨(Pipeline.withArrays_of_ne spec4 c W A main_v1 (by decide)).trans h.v1, (Pipeline.withArrays_of_ne spec4 c W A main_v3 (by decide)).trans h.v3,
   (Pipeline.withArrays_of_ne spec4 c W A main_v15 (by decide)).trans h.v15, (Pipeline.withArrays_of_ne spec4 c W A main_v20 (by decide)).trans h.v20,
   (Pipeline.withArrays_of_ne spec4 c W A main_arg3 (by decide)).trans h.a3, (Pipeline.withArrays_of_ne spec4 c W A main_arg4 (by decide)).trans h.a4,
   (Pipeline.withArrays_of_ne spec4 c W A main_arg5 (by decide)).trans h.a5⟩

variable (W x1 x3 x4 x5)

/-! ## The stretch between regions 0 and 1: node features gathered along the incidences and summed per hyperedge -/

/-- The per-hyperedge sums of the projected features: the reference's scatter-add of its gather, when region 0's array holds
    the reference's product. -/
theorem host1_v31 (h1 : W (Proc.devRef .tc main_v1) = val_main_v1 x1) (h3 : W (Proc.devRef .tc main_v3) = val_main_v3 x1)
    (h21 : W (Proc.devRef .tc main_v21) = val_main_v4 x0 x2) :
    after hostOps1 W (Proc.devRef .tc main_v31) = val_main_v31 x0 x1 x2 := by
  after_results_simp; rw [h1, h3, h21]; rfl

/-- The zero bias row of the first hyperedge normalisation. -/
theorem host1_v32 : after hostOps1 W (Proc.devRef .tc main_v32) = broadcastInDim S1x128 ![] bcast_S_S1x128 (constant S_ .f32 0x00000000#32) := by
  after_results_simp

/-- The reciprocal hyperedge degrees as a column. -/
theorem host1_v33 (h20 : W (Proc.devRef .tc main_v20) = val_main_v21 x1) :
    after hostOps1 W (Proc.devRef .tc main_v33) = shapeCast S100000x1 (val_main_v21 x1) shapeCasts_S100000_S100000x1 := by
  after_results_simp; rw [h20]; rfl

/-! ## The stretch between regions 1 and 2: hyperedge means gathered along the incidences and summed per node -/

theorem host2_v44 (h1 : W (Proc.devRef .tc main_v1) = val_main_v1 x1) (h3 : W (Proc.devRef .tc main_v3) = val_main_v3 x1)
    (h34 : W (Proc.devRef .tc main_v34) = val_main_v34 x0 x1 x2) :
    after hostOps2 W (Proc.devRef .tc main_v44) = val_main_v44 x0 x1 x2 := by
  after_results_simp; rw [h1, h3, h34]; rfl

/-- The reciprocal node degrees as a column. -/
theorem host2_v45 (h15 : W (Proc.devRef .tc main_v15) = val_main_v16 x1) :
    after hostOps2 W (Proc.devRef .tc main_v45) = shapeCast S100000x1 (val_main_v16 x1) shapeCasts_S100000_S100000x1 := by
  after_results_simp; rw [h15]; rfl

/-- The first bias as a row. -/
theorem host2_v46 (ha3 : W (Proc.devRef .tc main_arg3) = x3) :
    after hostOps2 W (Proc.devRef .tc main_v46) = shapeCast S1x128 x3 shapeCasts_S128_S1x128 := by
  after_results_simp; rw [ha3]; rfl

/-! ## The second layer's two stretches: the same gathers and sums over 64 features -/

theorem host4_v58 (h1 : W (Proc.devRef .tc main_v1) = val_main_v1 x1) (h3 : W (Proc.devRef .tc main_v3) = val_main_v3 x1)
    (h48 : W (Proc.devRef .tc main_v48) = val_main_v52 x0 x1 x2 x3 x4) :
    after hostOps4 W (Proc.devRef .tc main_v58) = val_main_v79 x0 x1 x2 x3 x4 := by
  after_results_simp; rw [h1, h3, h48]; rfl

theorem host4_v59 : after hostOps4 W (Proc.devRef .tc main_v59) = broadcastInDim S1x64 ![] bcast_S_S1x64 (constant S_ .f32 0x00000000#32) := by
  after_results_simp

theorem host4_v60 (h20 : W (Proc.devRef .tc main_v20) = val_main_v21 x1) :
    after hostOps4 W (Proc.devRef .tc main_v60) = shapeCast S100000x1 (val_main_v21 x1) shapeCasts_S100000_S100000x1 := by
  after_results_simp; rw [h20]; rfl

theorem host5_v71 (h1 : W (Proc.devRef .tc main_v1) = val_main_v1 x1) (h3 : W (Proc.devRef .tc main_v3) = val_main_v3 x1)
    (h61 : W (Proc.devRef .tc main_v61) = val_main_v82 x0 x1 x2 x3 x4) :
    after hostOps5 W (Proc.devRef .tc main_v71) = val_main_v92 x0 x1 x2 x3 x4 := by
  after_results_simp; rw [h1, h3, h61]; rfl

theorem host5_v72 (h15 : W (Proc.devRef .tc main_v15) = val_main_v16 x1) :
    after hostOps5 W (Proc.devRef .tc main_v72) = shapeCast S100000x1 (val_main_v16 x1) shapeCasts_S100000_S100000x1 := by
  after_results_simp; rw [h15]; rfl

/-- The second bias as a row. -/
theorem host5_v73 (ha5 : W (Proc.devRef .tc main_arg5) = x5) :
    after hostOps5 W (Proc.devRef .tc main_v73) = shapeCast S1x64 x5 shapeCasts_S64_S1x64 := by
  after_results_simp; rw [ha5]; rfl

/-! ## The reference recomputes the two reciprocal degrees for its second layer: the same operations of the same array -/

theorem recip_node_again : val_main_v64 (F := F) x1 = val_main_v16 x1 := rfl
theorem recip_edge_again : val_main_v69 (F := F) x1 = val_main_v21 x1 := rfl

end Cert.KernelIdeal.Host

end
-- ==== Proof.LibColumn.lean ====
/-
  Rank-2 arrays whose last axis is reduced with `keepdims`: the least and the greatest entry of each row, kept as a
  one-wide column and spread back over the row.
  * a `multi_reduction <minimumf>` over one axis, at the ideal values, as the fold of `min` over that axis's
    coordinates (the library has the `<maximumf>` form);
  * the index a reduction over the LAST axis of an [a, b] array inserts: `(r, k)` over `r`;
  * the keepdims column forms read at an index: [a] → [a, 1] by a shape cast, [a, 1] → [a, b] by a broadcast.
-/
import Idealize.ShloMosaic.Lib.Pipeline.Value
import Idealize.ShloMosaic.Lib.ValueIdx
import Idealize.ShloMosaic.PureOps.Ideal.Laws

noncomputable section

namespace Cert.LibColumn

open Idealize.ShloMosaic Idealize.ShloMosaic.ValueIdx

variable {α : Type}

/-- A float `vector.multi_reduction <minimumf>` over one axis, read at the ideal values: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Reducing the last axis of an [a, b] array: over row `r`, coordinate `k` is inserted as `(r, k)`. -/
theorem lift_last_ix2 {a b : ℕ} (h : (⟨2, ![a, b]⟩ : Shape).Reduces [(1 : Fin 2)] ⟨1, ![a]⟩) (r : Fin a) (k : Fin b) :
    h.lift (ix1 r) k = ix2 r k := by
  funext c
  apply Fin.ext
  refine (h.lift_val (ix1 r) k c).trans ?_
  match c with
  | ⟨0, _⟩ => rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Bridge.lean ====
/-
  The six regions' functions against the reference's stages, at the ideal values.
  The reference multiplies by a column spread along the row and adds a row spread down the rows; the kernel-side host code
  hands each region the column as a reshaped [100000] array and the bias as a reshaped row (a zero row where the layer has
  no bias to add yet), and the regions' functions read those at (r, 0) and (0, j). Adding the extended real zero changes
  nothing, and a reshape of [a] to [a, 1], or of [n] to [1, n], reads the array at its one free coordinate.
-/
import proofs.«161072_j85074712199280_1_alg».proof.KernelIdeal
import proofs.«161072_j85074712199280_1_alg».proof.Proof.RefRead
import proofs.«161072_j85074712199280_1_alg».proof.Proof.Spec
import proofs.«161072_j85074712199280_1_alg».proof.Proof.LibColumn
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option maxRecDepth 16384

noncomputable section

namespace Cert.Bridge

open Cert.ReferenceIdeal.ReadP
open Idealize.ShloMosaic Idealize.ShloMosaic.ValueIdx

/-- The reference's argument arrays, by their literal types, at the ideal values. -/
abbrev Feat : Type := (⟨Cert.ReferenceIdeal.S100000x128, .f32⟩ : BufTy).Contents (Elt Ideal)
abbrev Inc : Type := (⟨Cert.ReferenceIdeal.S2x1600000, .i32⟩ : BufTy).Contents (Elt Ideal)
abbrev Wt1 : Type := (⟨Cert.ReferenceIdeal.S128x128, .f32⟩ : BufTy).Contents (Elt Ideal)
abbrev Bs1 : Type := (⟨Cert.ReferenceIdeal.S128, .f32⟩ : BufTy).Contents (Elt Ideal)
abbrev Wt2 : Type := (⟨Cert.ReferenceIdeal.S128x64, .f32⟩ : BufTy).Contents (Elt Ideal)
abbrev Bs2 : Type := (⟨Cert.ReferenceIdeal.S64, .f32⟩ : BufTy).Contents (Elt Ideal)

variable (x0 : Feat) (x1 : Inc) (x2 : Wt1) (x3 : Bs1) (x4 : Wt2) (x5 : Bs2)

/- The layout facts the kernel's host operations carry are propositions: any proof of each serves. -/
variable (hcol : Cert.KernelIdeal.S100000.ShapeCasts Cert.KernelIdeal.S100000x1)
  (hzero128 : Cert.KernelIdeal.S_.BroadcastsInDim Cert.KernelIdeal.S1x128 (![] : Fin 0 → Fin Cert.KernelIdeal.S1x128.rank))
  (hzero64 : Cert.KernelIdeal.S_.BroadcastsInDim Cert.KernelIdeal.S1x64 (![] : Fin 0 → Fin Cert.KernelIdeal.S1x64.rank))
  (hrow128 : Cert.KernelIdeal.S128.ShapeCasts Cert.KernelIdeal.S1x128) (hrow64 : Cert.KernelIdeal.S64.ShapeCasts Cert.KernelIdeal.S1x64)

/-- A scalar zero spread into a one-row array reads the extended real zero at every index. -/
theorem zeroRow_apply {n : ℕ} (h : (⟨0, ![]⟩ : Shape).BroadcastsInDim ⟨2, ![1, n]⟩ (![] : Fin 0 → Fin 2))
    (i : (⟨2, ![1, n]⟩ : Shape).Idx) :
    broadcastInDim ⟨2, ![1, n]⟩ ![] h (constant (F := Ideal) ⟨0, ![]⟩ .f32 0x00000000#32) i = (0 : EReal) := by
  rw [broadcastInDim_apply ![] h _ i ix0 (fun a => a.elim0), constant_apply]
  exact Ideal.ofBits_zero_f32

/-- An `[n]` array cast to `[1, n]` reads, at `(u, j)`, the operand at `j`, whatever the unit coordinate `u`. -/
theorem shapeCast_n_1n_apply {α : Type} {n : ℕ} (x : (⟨1, ![n]⟩ : Shape).Idx → α) (h : (⟨1, ![n]⟩ : Shape).ShapeCasts ⟨2, ![1, n]⟩)
    (u : Fin 1) (j : Fin n) : shapeCast ⟨2, ![1, n]⟩ x h (ix2 u j) = x (ix1 j) :=
  shapeCast_apply x h _ _ (by
    have hu : u.val = 0 := by omega
    rw [Shape.rowMajor_val_two, Shape.rowMajor_val_one]
    show j.val = u.val * n + j.val
    rw [hu, Nat.zero_mul, Nat.zero_add])

/-- The reference computes the reciprocal hyperedge degree a second time, by the same operations on the same argument. -/
theorem recipEdgeDeg_again : val_main_v69 (F := Ideal) x1 = val_main_v21 x1 := rfl

/-- The reference computes the reciprocal node degree a second time, by the same operations on the same argument. -/
theorem recipNodeDeg_again : val_main_v64 (F := Ideal) x1 = val_main_v16 x1 := rfl

/-- Region 0's product is the reference's first `dot_general`. -/
theorem product1 : Cert.Spec.matProd (a := 100000) (k := 128) (n := 128) x0 x2 = val_main_v4 x0 x2 := by
  funext i
  obtain ⟨r, j, rfl⟩ : ∃ (r : Fin 100000) (j : Fin 128), i = ix2 r j := ⟨i 0, i 1, eq_ix2 i⟩
  rw [Cert.Spec.matProd_apply, val_main_v4_apply]
  refine Finset.sum_congr rfl fun k _ => ?_
  have el : lidx_main_v4 (ix2 r j) k = ix2 r k := funext fun a => Fin.ext (by match a with | ⟨0, _⟩ => rfl | ⟨1, _⟩ => rfl)
  have er : ridx_main_v4 (ix2 r j) k = ix2 k j := funext fun a => Fin.ext (by match a with | ⟨0, _⟩ => rfl | ⟨1, _⟩ => rfl)
  rw [el, er]

/-- Region 1: the per-hyperedge sums times the reciprocal hyperedge degree (plus a zero row) are the reference's hyperedge means. -/
theorem edgeMean1 : Cert.Spec.scaleShift (a := 100000) (n := 128) (val_main_v31 x0 x1 x2)
      (shapeCast Cert.KernelIdeal.S100000x1 (val_main_v21 x1) hcol)
      (broadcastInDim Cert.KernelIdeal.S1x128 ![] hzero128 (constant (F := Ideal) Cert.KernelIdeal.S_ .f32 0x00000000#32))
    = val_main_v34 x0 x1 x2 := by
  funext i
  obtain ⟨r, j, rfl⟩ : ∃ (r : Fin 100000) (j : Fin 128), i = ix2 r j := ⟨i 0, i 1, eq_ix2 i⟩
  rw [Cert.Spec.scaleShift_apply, val_main_v34_apply, val_main_v33_apply, val_main_v32_apply]
  rw [zeroRow_apply hzero128, add_zero, Cert.LibColumn.shapeCast_a_a1_apply (val_main_v21 x1) hcol r 0]
  have e : idx_main_v32 (idx_main_v33 (ix2 r j)) = ix1 r := funext fun a => Fin.ext (by match a with | ⟨0, _⟩ => rfl)
  rw [e]
  rfl

/-- Region 2: the per-node sums times the reciprocal node degree, plus the first bias, rectified, are the reference's hidden features. -/
theorem hidden : Cert.Spec.scaleShiftRelu (a := 100000) (n := 128) (val_main_v44 x0 x1 x2)
      (shapeCast Cert.KernelIdeal.S100000x1 (val_main_v16 x1) hcol)
      (shapeCast Cert.KernelIdeal.S1x128 x3 hrow128)
    = val_main_v51 x0 x1 x2 x3 := by
  funext i
  obtain ⟨r, j, rfl⟩ : ∃ (r : Fin 100000) (j : Fin 128), i = ix2 r j := ⟨i 0, i 1, eq_ix2 i⟩
  rw [Cert.Spec.scaleShiftRelu_apply, val_main_v51_apply, val_main_v50_apply, val_main_v47_apply, val_main_v46_apply,
    val_main_v45_apply, val_main_v49_apply, val_main_v48_apply, val_main_call2_v0_apply, val_main_call2_cst_apply]
  rw [Cert.LibColumn.shapeCast_a_a1_apply (val_main_v16 x1) hcol r 0, shapeCast_n_1n_apply x3 hrow128 0 j]
  have e : idx_main_v45 (idx_main_v46 (ix2 r j)) = ix1 r := funext fun a => Fin.ext (by match a with | ⟨0, _⟩ => rfl)
  have eb : idx_main_v48 (idx_main_v49 (ix2 r j)) = ix1 j := funext fun a => Fin.ext (by match a with | ⟨0, _⟩ => rfl)
  rw [e, eb]
  rfl

/-- Region 3's product is the reference's second `dot_general`. -/
theorem product2 : Cert.Spec.matProd (a := 100000) (k := 128) (n := 64) (val_main_v51 x0 x1 x2 x3) x4 = val_main_v52 x0 x1 x2 x3 x4 := by
  funext i
  obtain ⟨r, j, rfl⟩ : ∃ (r : Fin 100000) (j : Fin 64), i = ix2 r j := ⟨i 0, i 1, eq_ix2 i⟩
  rw [Cert.Spec.matProd_apply, val_main_v52_apply]
  refine Finset.sum_congr rfl fun k _ => ?_
  have el : lidx_main_v52 (ix2 r j) k = ix2 r k := funext fun a => Fin.ext (by match a with | ⟨0, _⟩ => rfl | ⟨1, _⟩ => rfl)
  have er : ridx_main_v52 (ix2 r j) k = ix2 k j := funext fun a => Fin.ext (by match a with | ⟨0, _⟩ => rfl | ⟨1, _⟩ => rfl)
  rw [el, er]

/-- Region 4: the second layer's hyperedge means (the reference recomputes the reciprocal degree: the same value). -/
theorem edgeMean2 : Cert.Spec.scaleShift (a := 100000) (n := 64) (val_main_v79 x0 x1 x2 x3 x4)
      (shapeCast Cert.KernelIdeal.S100000x1 (val_main_v21 x1) hcol)
      (broadcastInDim Cert.KernelIdeal.S1x64 ![] hzero64 (constant (F := Ideal) Cert.KernelIdeal.S_ .f32 0x00000000#32))
    = val_main_v82 x0 x1 x2 x3 x4 := by
  funext i
  obtain ⟨r, j, rfl⟩ : ∃ (r : Fin 100000) (j : Fin 64), i = ix2 r j := ⟨i 0, i 1, eq_ix2 i⟩
  rw [Cert.Spec.scaleShift_apply, val_main_v82_apply, val_main_v81_apply, val_main_v80_apply, recipEdgeDeg_again]
  rw [zeroRow_apply hzero64, add_zero, Cert.LibColumn.shapeCast_a_a1_apply (val_main_v21 x1) hcol r 0]
  have e : idx_main_v80 (idx_main_v81 (ix2 r j)) = ix1 r := funext fun a => Fin.ext (by match a with | ⟨0, _⟩ => rfl)
  rw [e]
  rfl

/-- Region 5: the second layer's node means plus the second bias are the reference's result. -/
theorem result : Cert.Spec.scaleShift (a := 100000) (n := 64) (val_main_v92 x0 x1 x2 x3 x4)
      (shapeCast Cert.KernelIdeal.S100000x1 (val_main_v16 x1) hcol)
      (shapeCast Cert.KernelIdeal.S1x64 x5 hrow64)
    = val_main_v98 x0 x1 x2 x3 x4 x5 := by
  funext i
  obtain ⟨r, j, rfl⟩ : ∃ (r : Fin 100000) (j : Fin 64), i = ix2 r j := ⟨i 0, i 1, eq_ix2 i⟩
  rw [Cert.Spec.scaleShift_apply, val_main_v98_apply, val_main_v95_apply, val_main_v94_apply, val_main_v93_apply,
    val_main_v97_apply, val_main_v96_apply, recipNodeDeg_again]
  rw [Cert.LibColumn.shapeCast_a_a1_apply (val_main_v16 x1) hcol r 0, shapeCast_n_1n_apply x5 hrow64 0 j]
  have e : idx_main_v93 (idx_main_v94 (ix2 r j)) = ix1 r := funext fun a => Fin.ext (by match a with | ⟨0, _⟩ => rfl)
  have eb : idx_main_v96 (idx_main_v97 (ix2 r j)) = ix1 j := funext fun a => Fin.ext (by match a with | ⟨0, _⟩ => rfl)
  rw [e, eb]
  rfl

end Cert.Bridge

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Reg0.lean ====
import proofs.«161072_j85074712199280_1_alg».proof.Proof.Gen.KernelIdeal.Frame
import proofs.«161072_j85074712199280_1_alg».proof.Proof.Spec
import proofs.«161072_j85074712199280_1_alg».proof.Proof.LibPlainMatmul
import Idealize.ShloMosaic.PureOps.Ideal
import Idealize.ShloMosaic.PureOps.Ideal.Laws
import Idealize.ShloMosaic.Lib.ValueIdx
import Idealize.ShloMosaic.Lib.Pipeline.Value

set_option maxRecDepth 16384

open scoped BigOperators

noncomputable section

namespace Cert.KernelIdeal.Reg

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## Region 0: block row t of the features, times the whole first weight, is block row t of the product

The grid has 20 points; point t reads rows 5000·t … 5000·t + 4999 of the [100000, 128] features and the whole
[128, 128] weight, and writes rows 5000·t … 5000·t + 4999 of the [100000, 128] output. Entry (p, q) of the block it
writes is the sum over r of (features' block)(p, r) · weight(r, q), which is entry (5000·t + p, q) of the product of the
whole arrays; the twenty blocks tile the output. -/

namespace Product0

/-- The zero offsets of a whole-block access, as a constant function. -/
theorem offsets_zero : (![0, 0] : Fin 2 → Nat) = fun _ => 0 := funext fun a => by fin_cases a <;> rfl

/-- The body's result at entry (p, q) of its block: the sum over the contracted coordinate r of x(p, r) · w(r, q).
    Rounding the operands to the narrower format changes no ideal value, and the accumulator starts at zero. -/
theorem entry (x0 : Vec Ideal S5000x128 .f32) (x1 : Vec Ideal S128x128 .f32) (p : Fin 5000) (q : Fin 128) :
    k0_pay1 (F := Ideal) x0 x1 (ix2 p q) = ∑ r : Fin 128, (x0 (ix2 p r) : EReal) * (x1 (ix2 r q) : EReal) := by
  unfold k0_pay1
  refine (PlainMatmul.matmul_zero_apply _ dot_S5000x128_S128x128_S5000x128_1_0_0_1_n_n_wf rfl none _ _ p q).trans ?_
  rfl

/-- The index maps over the grid: at point t the features' block and the output's block are the same block row,
    in column block 0; the weight's block is always block (0, 0); there are at most 20 block rows. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 block rows of the output is some point's. -/
theorem block_row_onto : ∀ b : Fin 20, ∃ t : Fin cfg0.N, win0_2.index t = ![b.val, 0] :=
  (by decide +kernel : ∀ b : Fin 20, ∃ t : Fin grid0.N, win0_2.index t = ![b.val, 0])

/-- The features' block at point t, at (p, r), is the features at row (block row) · 5000 + p, column r. -/
theorem features_block (c : Dev nD) (t : Fin cfg0.N) (p : Fin 5000) (r : Fin 128) (i : S100000x128.Idx)
    (h0 : (i 0).val = win0_2.index t (0 : Fin 2) * 5000 + p.val) (h1 : (i 1).val = r.val) :
    iblk0 (F := Ideal) V c 0 t (ix2 p r) = V c main_arg0 i := by
  obtain ⟨e0, e1, -, -, -, -⟩ := block_indices t
  show V c main_arg0 (((cfg0.win 0).blk t).view.emb (ix2 p r)) = V c main_arg0 i
  refine congrArg (V c main_arg0) ?_
  funext a; apply Fin.ext
  match a with
  | ⟨0, _⟩ => show win0_0.index t (0 : Fin 2) * 5000 + 1 * p.val = (i 0).val; omega
  | ⟨1, _⟩ => show win0_0.index t (1 : Fin 2) * 128 + 1 * r.val = (i 1).val; omega

/-- The weight's block at every point is the whole weight. -/
theorem weight_block (c : Dev nD) (t : Fin cfg0.N) (r : Fin 128) (q : Fin 128) :
    iblk0 (F := Ideal) V c 1 t (ix2 r q) = V c main_arg2 (ix2 r q) := by
  obtain ⟨-, -, e2, e3, -, -⟩ := block_indices t
  show V c main_arg2 (((cfg0.win 1).blk t).view.emb (ix2 r q)) = V c main_arg2 (ix2 r q)
  refine congrArg (V c main_arg2) ?_
  funext a; apply Fin.ext
  match a with
  | ⟨0, _⟩ => show win0_1.index t (0 : Fin 2) * 128 + 1 * r.val = r.val; omega
  | ⟨1, _⟩ => show win0_1.index t (1 : Fin 2) * 128 + 1 * q.val = q.val; omega

/-- The whole-array function region 0 computes: the features times the first weight. -/
abbrev whole (c : Dev nD) : S100000x128.Idx → Elt Ideal .f32 :=
  Cert.Spec.matProd (a := 100000) (k := 128) (n := 128) (V c main_arg0) (V c main_arg2)

/-- What point t writes back is block t of the product of the features by the weight. -/
theorem flushed_eq (c : Dev nD) (t : Fin cfg0.N) :
    (dat0 (F := Ideal) V c).flushed 2 t = ((cfg0.win 2).blk t).view.read (Elt Ideal) (whole V c) := by
  show (cfg0.win 2).cut (grid0.coords t) ((dat0 (F := Ideal) V c).after 2 t) = _
  rw [after0_2]
  unfold out0_2
  rw [View.canon_unit_zero offsets_zero]
  simp only [View.ld_unit_zero (S := S5000x128) offsets_zero, View.ld_unit_zero (S := S128x128) offsets_zero]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = whole V c (((cfg0.win 2).blk t).view.emb (ix2 p q))
  refine (entry _ _ p q).trans ?_
  obtain ⟨-, -, -, -, e4, e5⟩ := block_indices t
  -- entry (p, q) of the output's block sits at row (block row) · 5000 + p, column q of the array
  have hemb : ((cfg0.win 2).blk t).view.emb (ix2 p q)
      = ix2 (⟨win0_2.index t (0 : Fin 2) * 5000 + p.val, by have := p.isLt; omega⟩ : Fin 100000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  rw [hemb]
  refine Eq.trans ?_ (Cert.Spec.matProd_apply _ _ _ _).symm
  refine Finset.sum_congr rfl fun r _ => ?_
  rw [features_block V c t p r (ix2 (⟨win0_2.index t (0 : Fin 2) * 5000 + p.val, by have := p.isLt; omega⟩ : Fin 100000) r) rfl rfl,
    weight_block V c t r q]

/-- An index of the output array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v21).slice (win0_2.rect t)).set ↔ _
  rw [View.set_slice_whole, Rect.mem_set_unit]
  exact Iff.rfl

/-- Every index of the output array lies in some point's block: row r in the block of the point whose block row is r / 5000. -/
theorem blocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_row_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

end Product0

/-- After region 0 its output array is the product of the features by the first weight. -/
theorem arr0 (c : Dev nD) : (dat0 (F := Ideal) V c).arrAt 2 cfg0.N
    = Cert.Spec.matProd (a := 100000) (k := 128) (n := 128) (V c main_arg0) (V c main_arg2) :=
  (dat0 (F := Ideal) V c).arrAt_eq_of_cover 2 (Product0.whole V c) (fun t _ => Product0.flushed_eq V c t) Product0.blocks_cover

end Cert.KernelIdeal.Reg

end
-- ==== Proof.Reg1.lean ====
import proofs.«161072_j85074712199280_1_alg».proof.Proof.Gen.KernelIdeal.Frame
import proofs.«161072_j85074712199280_1_alg».proof.Proof.Gen.KernelIdeal.Points
import proofs.«161072_j85074712199280_1_alg».proof.Proof.Spec
import proofs.«161072_j85074712199280_1_alg».proof.Proof.LibColumn
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- A product and a sum of three array entries is the normalisation at the index whose row and lane they sit in. -/
theorem scaleShift_at1 (y : Cert.Spec.Arr 100000 128) (s : Cert.Spec.Arr 100000 1) (b : Cert.Spec.Arr 1 128)
    (i i0 : (⟨2, ![100000, 128]⟩ : Shape).Idx) (i1 : (⟨2, ![100000, 1]⟩ : Shape).Idx) (i2 : (⟨2, ![1, 128]⟩ : Shape).Idx)
    (h0 : i0 = i) (h1 : i1 = ix2 (⟨(i 0).val, (i 0).isLt⟩ : Fin 100000) (0 : Fin 1))
    (h2 : i2 = ix2 (0 : Fin 1) (⟨(i 1).val, (i 1).isLt⟩ : Fin 128)) :
    y i0 * s i1 + b i2 = Cert.Spec.scaleShift y s b i := by
  subst h0 h1 h2; rfl

/-- The printed index maps over the grid: the scaled input and the column move with the output's row block, the bias
    row stays, and every lane block is the whole row. -/
theorem blocks_aligned1 : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

/-- The body's result at row p, lane q of a block. -/
theorem pay1_apply (x0 : Vec Ideal S5000x128 .f32) (x1 : Vec Ideal S5000x1 .f32) (x2 : Vec Ideal S1x128 .f32)
    (p : Fin 5000) (q : Fin 128) :
    k1_pay1 x0 x1 x2 (ix2 p q) = x0 (ix2 p q) * x1 (ix2 p (0 : Fin 1)) + x2 (ix2 (0 : Fin 1) q) := by
  unfold k1_pay1
  rw [shapeCast_self, shapeCast_self, shapeCast_self]
  refine (addf_apply _ _ _).trans ?_
  refine congrArg₂ (· + ·) ((mulf_apply _ _ _).trans (congrArg (x0 (ix2 p q) * ·) ?_)) ?_
  · exact Cert.LibColumn.broadcastTo_a1_ab_apply x1 broadcasts_S5000x1_S5000x128 p q
  · exact broadcastTo_1b_ab_apply x2 broadcasts_S1x128_S5000x128 p q

theorem zero_offsets1 : (![0, 0] : Fin 2 → Nat) = fun _ => 0 := funext fun a => by fin_cases a <;> rfl

theorem flushed1_eq (c : Dev nD) (t : Fin cfg1.N) :
    (dat1 (F := Ideal) V c).flushed 3 t = ((cfg1.win 3).blk t).view.read (Elt Ideal)
      (Cert.Spec.scaleShift (a := 100000) (n := 128) (V c main_v31) (V c main_v33) (V c main_v32)) := by
  show (cfg1.win 3).cut (grid1.coords t) ((dat1 V c).after 3 t) = _
  rw [after1_3]
  unfold out1_3
  rw [View.canon_unit_zero zero_offsets1]
  simp only [View.ld_unit_zero (S := S5000x128) zero_offsets1, View.ld_unit_zero (S := S5000x1) zero_offsets1, View.ld_unit_zero (S := S1x128) zero_offsets1]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q) = Cert.Spec.scaleShift (a := 100000) (n := 128) (V c main_v31) (V c main_v33) (V c main_v32) (((cfg1.win 3).blk t).view.emb (ix2 p q))
  refine (pay1_apply _ _ _ p q).trans ?_
  obtain ⟨e0, e1, e2, e3, e4, e5, e6, e7⟩ := blocks_aligned1 t
  refine scaleShift_at1 _ _ _ (((cfg1.win 3).blk t).view.emb (ix2 p q)) (((cfg1.win 0).blk t).view.emb (ix2 p q)) (((cfg1.win 1).blk t).view.emb (ix2 p (0 : Fin 1))) (((cfg1.win 2).blk t).view.emb (ix2 (0 : Fin 1) q)) ?_ ?_ ?_
  · funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  · funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  · funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega

/-- An index of the array is in a point's block iff each coordinate is in the block's range on its axis. -/
theorem mem_block1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v34).slice (win1_3.rect t)).set ↔ _
  rw [View.set_slice_whole, Rect.mem_set_unit]
  exact Iff.rfl

/-- Every index of the array lies in the block of the point its row falls in: row r in that of point r / 5000. -/
theorem rows_covered1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have ht : (i 0).val / 5000 < 20 := by omega
  obtain ⟨-, -, -, -, -, -, e6, e7⟩ := blocks_aligned1 ⟨(i 0).val / 5000, ht⟩
  have e7' : win1_3.index ⟨(i 0).val / 5000, ht⟩ (0 : Fin 2) = (i 0).val / 5000 := e7
  refine ⟨⟨(i 0).val / 5000, ht⟩, flush1_3 _, ?_⟩
  rw [mem_block1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    omega

/-- After region 1 its output array is its first input scaled row by row by the column, plus the bias row. -/
theorem arr1 (c : Dev nD) : (dat1 (F := Ideal) V c).arrAt 3 cfg1.N
    = Cert.Spec.scaleShift (a := 100000) (n := 128) (V c main_v31) (V c main_v33) (V c main_v32) :=
  (dat1 (F := Ideal) V c).arrAt_eq_of_cover 3 _ (fun t _ => flushed1_eq V c t) rows_covered1

end Cert.KernelIdeal.Reg

end
-- ==== Proof.Reg2.lean ====
import proofs.«161072_j85074712199280_1_alg».proof.Proof.Gen.KernelIdeal.Frame
import proofs.«161072_j85074712199280_1_alg».proof.Proof.Gen.KernelIdeal.Points
import proofs.«161072_j85074712199280_1_alg».proof.Proof.Spec
import proofs.«161072_j85074712199280_1_alg».proof.Proof.LibColumn
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The larger of zero and a product and a sum of three array entries is the rectified normalisation at the index whose
    row and lane they sit in. -/
theorem scaleShiftRelu_at2 (y : Cert.Spec.Arr 100000 128) (s : Cert.Spec.Arr 100000 1) (b : Cert.Spec.Arr 1 128)
    (i i0 : (⟨2, ![100000, 128]⟩ : Shape).Idx) (i1 : (⟨2, ![100000, 1]⟩ : Shape).Idx) (i2 : (⟨2, ![1, 128]⟩ : Shape).Idx)
    (h0 : i0 = i) (h1 : i1 = ix2 (⟨(i 0).val, (i 0).isLt⟩ : Fin 100000) (0 : Fin 1))
    (h2 : i2 = ix2 (0 : Fin 1) (⟨(i 1).val, (i 1).isLt⟩ : Fin 128)) :
    max (y i0 * s i1 + b i2) (Ideal.ofBits .f32 0x00000000#32) = Cert.Spec.scaleShiftRelu y s b i := by
  subst h0 h1 h2; rfl

/-- The printed index maps over the grid: the scaled input and the column move with the output's row block, the bias
    row stays, and every lane block is the whole row. -/
theorem blocks_aligned2 : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (1 : Fin 2) = 0 ∧ win2_3.index t (0 : Fin 2) = t.val :=
  (by decide +kernel : ∀ t : Fin grid2.N, _)

/-- The body's result at row p, lane q of a block: the scaled and shifted entry, or zero if that is larger. -/
theorem pay2_apply (x0 : Vec Ideal S5000x128 .f32) (x1 : Vec Ideal S5000x1 .f32) (x2 : Vec Ideal S1x128 .f32)
    (p : Fin 5000) (q : Fin 128) :
    k2_pay1 x0 x1 x2 (ix2 p q)
      = max (x0 (ix2 p q) * x1 (ix2 p (0 : Fin 1)) + x2 (ix2 (0 : Fin 1) q)) (Ideal.ofBits .f32 0x00000000#32) := by
  unfold k2_pay1
  rw [shapeCast_self, shapeCast_self, shapeCast_self]
  refine (maximumf_apply _ _ _).trans ?_
  refine congrArg₂ max ?_ rfl
  refine (addf_apply _ _ _).trans ?_
  refine congrArg₂ (· + ·) ((mulf_apply _ _ _).trans (congrArg (x0 (ix2 p q) * ·) ?_)) ?_
  · exact Cert.LibColumn.broadcastTo_a1_ab_apply x1 broadcasts_S5000x1_S5000x128 p q
  · exact broadcastTo_1b_ab_apply x2 broadcasts_S1x128_S5000x128 p q

theorem zero_offsets2 : (![0, 0] : Fin 2 → Nat) = fun _ => 0 := funext fun a => by fin_cases a <;> rfl

theorem flushed2_eq (c : Dev nD) (t : Fin cfg2.N) :
    (dat2 (F := Ideal) V c).flushed 3 t = ((cfg2.win 3).blk t).view.read (Elt Ideal)
      (Cert.Spec.scaleShiftRelu (a := 100000) (n := 128) (V c main_v44) (V c main_v45) (V c main_v46)) := by
  show (cfg2.win 3).cut (grid2.coords t) ((dat2 V c).after 3 t) = _
  rw [after2_3]
  unfold out2_3
  rw [View.canon_unit_zero zero_offsets2]
  simp only [View.ld_unit_zero (S := S5000x128) zero_offsets2, View.ld_unit_zero (S := S5000x1) zero_offsets2, View.ld_unit_zero (S := S1x128) zero_offsets2]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q) = Cert.Spec.scaleShiftRelu (a := 100000) (n := 128) (V c main_v44) (V c main_v45) (V c main_v46) (((cfg2.win 3).blk t).view.emb (ix2 p q))
  refine (pay2_apply _ _ _ p q).trans ?_
  obtain ⟨e0, e1, e2, e3, e4, e5, e6, e7⟩ := blocks_aligned2 t
  refine scaleShiftRelu_at2 _ _ _ (((cfg2.win 3).blk t).view.emb (ix2 p q)) (((cfg2.win 0).blk t).view.emb (ix2 p q)) (((cfg2.win 1).blk t).view.emb (ix2 p (0 : Fin 1))) (((cfg2.win 2).blk t).view.emb (ix2 (0 : Fin 1) q)) ?_ ?_ ?_
  · funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * q.val = win2_3.index t (1 : Fin 2) * 128 + 1 * q.val; omega
  · funext a; apply Fin.ext
    match a with
    | ⟨0, _⟩ => show win2_1.index t (0 : Fin 2) * 5000 + 1 * p.val = win2_3.index t (0 : Fin 2) * 5000 + 1 * p.val; omega
    | ⟨1, _⟩ => show win2_1.index t (1 : Fin 2) * 1 + 1 * 0 = 0; omega
  · funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega

/-- An index of the array is in a point's block iff each coordinate is in the block's range on its axis. -/
theorem mem_block2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v47).slice (win2_3.rect t)).set ↔ _
  rw [View.set_slice_whole, Rect.mem_set_unit]
  exact Iff.rfl

/-- Every index of the array lies in the block of the point its row falls in: row r in that of point r / 5000. -/
theorem rows_covered2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have ht : (i 0).val / 5000 < 20 := by omega
  obtain ⟨-, -, -, -, -, -, e6, e7⟩ := blocks_aligned2 ⟨(i 0).val / 5000, ht⟩
  have e7' : win2_3.index ⟨(i 0).val / 5000, ht⟩ (0 : Fin 2) = (i 0).val / 5000 := e7
  refine ⟨⟨(i 0).val / 5000, ht⟩, flush2_3 _, ?_⟩
  rw [mem_block2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    omega
  | ⟨1, _⟩ =>
    show win2_3.index ⟨(i 0).val / 5000, ht⟩ (1 : Fin 2) * 128 ≤ (i 1).val ∧ (i 1).val < win2_3.index ⟨(i 0).val / 5000, ht⟩ (1 : Fin 2) * 128 + 128
    omega

/-- After region 2 its output array is its first input scaled row by row by the column, plus the bias row, rectified. -/
theorem arr2 (c : Dev nD) : (dat2 (F := Ideal) V c).arrAt 3 cfg2.N
    = Cert.Spec.scaleShiftRelu (a := 100000) (n := 128) (V c main_v44) (V c main_v45) (V c main_v46) :=
  (dat2 (F := Ideal) V c).arrAt_eq_of_cover 3 _ (fun t _ => flushed2_eq V c t) rows_covered2

end Cert.KernelIdeal.Reg

end
-- ==== Proof.Reg3.lean ====
import proofs.«161072_j85074712199280_1_alg».proof.Proof.Gen.KernelIdeal.Frame
import proofs.«161072_j85074712199280_1_alg».proof.Proof.Spec
import proofs.«161072_j85074712199280_1_alg».proof.Proof.LibPlainMatmul
import Idealize.ShloMosaic.PureOps.Ideal
import Idealize.ShloMosaic.PureOps.Ideal.Laws
import Idealize.ShloMosaic.Lib.ValueIdx
import Idealize.ShloMosaic.Lib.Pipeline.Value

set_option maxRecDepth 16384

open scoped BigOperators

noncomputable section

namespace Cert.KernelIdeal.Reg

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## Region 3: block row t of the hidden features, times the whole second weight, is block row t of the product

The grid has 20 points; point t reads rows 5000·t … 5000·t + 4999 of the [100000, 128] hidden features and the whole
[128, 64] weight, and writes rows 5000·t … 5000·t + 4999 of the [100000, 64] output. Entry (p, q) of the block it
writes is the sum over r of (hidden features' block)(p, r) · weight(r, q), which is entry (5000·t + p, q) of the product
of the whole arrays; the twenty blocks tile the output. -/

namespace Product3

/-- The zero offsets of a whole-block access, as a constant function. -/
theorem offsets_zero : (![0, 0] : Fin 2 → Nat) = fun _ => 0 := funext fun a => by fin_cases a <;> rfl

/-- The body's result at entry (p, q) of its block: the sum over the contracted coordinate r of x(p, r) · w(r, q).
    Recasting the left operand to its own shape is the identity, rounding the operands to the narrower format changes
    no ideal value, and the accumulator starts at zero. -/
theorem entry (x0 : Vec Ideal S5000x128 .f32) (x1 : Vec Ideal S128x64 .f32) (p : Fin 5000) (q : Fin 64) :
    k3_pay1 (F := Ideal) x0 x1 (ix2 p q) = ∑ r : Fin 128, (x0 (ix2 p r) : EReal) * (x1 (ix2 r q) : EReal) := by
  unfold k3_pay1
  refine (PlainMatmul.matmul_zero_apply _ dot_S5000x128_S128x64_S5000x64_1_0_0_1_n_n_wf rfl none _ _ p q).trans ?_
  refine Finset.sum_congr rfl fun r _ => ?_
  show (shapeCast S5000x128 x0 shapeCasts_S5000x128_S5000x128 (ix2 p r) : EReal) * (x1 (ix2 r q) : EReal) = _
  rw [shapeCast_self]

/-- The index maps over the grid: at point t the hidden features' block and the output's block are the same block
    row, in column block 0; the weight's block is always block (0, 0); there are at most 20 block rows. -/
theorem block_indices : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 19 :=
  (by decide +kernel : ∀ t : Fin grid3.N, _)

/-- Every one of the 20 block rows of the output is some point's. -/
theorem block_row_onto : ∀ b : Fin 20, ∃ t : Fin cfg3.N, win3_2.index t = ![b.val, 0] :=
  (by decide +kernel : ∀ b : Fin 20, ∃ t : Fin grid3.N, win3_2.index t = ![b.val, 0])

/-- The hidden features' block at point t, at (p, r), is the hidden features at row (block row) · 5000 + p, column r. -/
theorem features_block (c : Dev nD) (t : Fin cfg3.N) (p : Fin 5000) (r : Fin 128) (i : S100000x128.Idx)
    (h0 : (i 0).val = win3_2.index t (0 : Fin 2) * 5000 + p.val) (h1 : (i 1).val = r.val) :
    iblk3 (F := Ideal) V c 0 t (ix2 p r) = V c main_v47 i := by
  obtain ⟨e0, e1, -, -, -, -⟩ := block_indices t
  show V c main_v47 (((cfg3.win 0).blk t).view.emb (ix2 p r)) = V c main_v47 i
  refine congrArg (V c main_v47) ?_
  funext a; apply Fin.ext
  match a with
  | ⟨0, _⟩ => show win3_0.index t (0 : Fin 2) * 5000 + 1 * p.val = (i 0).val; omega
  | ⟨1, _⟩ => show win3_0.index t (1 : Fin 2) * 128 + 1 * r.val = (i 1).val; omega

/-- The weight's block at every point is the whole weight. -/
theorem weight_block (c : Dev nD) (t : Fin cfg3.N) (r : Fin 128) (q : Fin 64) :
    iblk3 (F := Ideal) V c 1 t (ix2 r q) = V c main_arg4 (ix2 r q) := by
  obtain ⟨-, -, e2, e3, -, -⟩ := block_indices t
  show V c main_arg4 (((cfg3.win 1).blk t).view.emb (ix2 r q)) = V c main_arg4 (ix2 r q)
  refine congrArg (V c main_arg4) ?_
  funext a; apply Fin.ext
  match a with
  | ⟨0, _⟩ => show win3_1.index t (0 : Fin 2) * 128 + 1 * r.val = r.val; omega
  | ⟨1, _⟩ => show win3_1.index t (1 : Fin 2) * 64 + 1 * q.val = q.val; omega

/-- The whole-array function region 3 computes: the hidden features times the second weight. -/
abbrev whole (c : Dev nD) : S100000x64.Idx → Elt Ideal .f32 :=
  Cert.Spec.matProd (a := 100000) (k := 128) (n := 64) (V c main_v47) (V c main_arg4)

/-- What point t writes back is block t of the product of the hidden features by the weight. -/
theorem flushed_eq (c : Dev nD) (t : Fin cfg3.N) :
    (dat3 (F := Ideal) V c).flushed 2 t = ((cfg3.win 2).blk t).view.read (Elt Ideal) (whole V c) := by
  show (cfg3.win 2).cut (grid3.coords t) ((dat3 (F := Ideal) V c).after 2 t) = _
  rw [after3_2]
  unfold out3_2
  rw [View.canon_unit_zero offsets_zero]
  simp only [View.ld_unit_zero (S := S5000x128) offsets_zero, View.ld_unit_zero (S := S128x64) offsets_zero]
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (ix2 p q)
    = whole V c (((cfg3.win 2).blk t).view.emb (ix2 p q))
  refine (entry _ _ p q).trans ?_
  obtain ⟨-, -, -, -, e4, e5⟩ := block_indices t
  -- entry (p, q) of the output's block sits at row (block row) · 5000 + p, column q of the array
  have hemb : ((cfg3.win 2).blk t).view.emb (ix2 p q)
      = ix2 (⟨win3_2.index t (0 : Fin 2) * 5000 + p.val, by have := p.isLt; omega⟩ : Fin 100000) q := by
    funext a; apply Fin.ext
    match a with
    | ⟨0, _⟩ => show win3_2.index t (0 : Fin 2) * 5000 + 1 * p.val = win3_2.index t (0 : Fin 2) * 5000 + p.val; omega
    | ⟨1, _⟩ => show win3_2.index t (1 : Fin 2) * 64 + 1 * q.val = q.val; omega
  rw [hemb]
  refine Eq.trans ?_ (Cert.Spec.matProd_apply _ _ _ _).symm
  refine Finset.sum_congr rfl fun r _ => ?_
  rw [features_block V c t p r (ix2 (⟨win3_2.index t (0 : Fin 2) * 5000 + p.val, by have := p.isLt; omega⟩ : Fin 100000) r) rfl rfl,
    weight_block V c t r q]

/-- An index of the output array is in point t's block iff each coordinate is in the block's range on its axis. -/
theorem mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v48).slice (win3_2.rect t)).set ↔ _
  rw [View.set_slice_whole, Rect.mem_set_unit]
  exact Iff.rfl

/-- Every index of the output array lies in some point's block: row r in the block of the point whose block row is r / 5000. -/
theorem blocks_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := block_row_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

end Product3

/-- After region 3 its output array is the product of the hidden features by the second weight. -/
theorem arr3 (c : Dev nD) : (dat3 (F := Ideal) V c).arrAt 2 cfg3.N
    = Cert.Spec.matProd (a := 100000) (k := 128) (n := 64) (V c main_v47) (V c main_arg4) :=
  (dat3 (F := Ideal) V c).arrAt_eq_of_cover 2 (Product3.whole V c) (fun t _ => Product3.flushed_eq V c t) Product3.blocks_cover

end Cert.KernelIdeal.Reg

end
-- ==== Proof.Reg4.lean ====
import proofs.«161072_j85074712199280_1_alg».proof.Proof.Gen.KernelIdeal.Frame
import proofs.«161072_j85074712199280_1_alg».proof.Proof.Spec
import proofs.«161072_j85074712199280_1_alg».proof.Proof.LibColumn
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem

/-! ## The body's arithmetic at one entry of the block -/

/-- Entry (p, q) of the stored block: the first block's entry times the column's entry of row p, plus the bias
    row's entry of lane q. The casts are of a shape to itself; the column is spread along its row and the bias
    row down the rows. -/
theorem scaled_row_entry4 (x0 : Vec Ideal S5000x64 .f32) (x1 : Vec Ideal S5000x1 .f32) (x2 : Vec Ideal S1x64 .f32)
    (p : Fin 5000) (q : Fin 64) :
    k4_pay1 (F := Ideal) x0 x1 x2 (ix2 p q) = x0 (ix2 p q) * x1 (ix2 p (0 : Fin 1)) + x2 (ix2 (0 : Fin 1) q) := by
  unfold k4_pay1
  refine (addf_apply _ _ (ix2 p q)).trans ?_
  refine congrArg₂ (· + ·) ?_ ?_
  · refine (mulf_apply _ _ (ix2 p q)).trans ?_
    refine congrArg₂ (· * ·) ?_ ?_
    · rw [shapeCast_self]
    · refine (Cert.LibColumn.broadcastTo_a1_ab_apply _ _ p q).trans ?_
      rw [shapeCast_self]
  · refine (broadcastTo_1b_ab_apply _ _ p q).trans ?_
    rw [shapeCast_self]

variable (V : (c : Dev nD) → (b : Ref sig .tc) → Buf (Elt Ideal) ((c : Thread nD τ).loc b))

/-! ## Where each window's block sits at a point of the grid -/

theorem zero_offsets4 : (![0, 0] : Fin 2 → Nat) = fun _ => 0 := funext fun a => by fin_cases a <;> rfl

/-- The printed index maps, decided over the 20 points: at point t the feature block, the column block and the output
    block are all the t-th block of rows, at lane block 0; the bias row's one block is the whole row at every point. -/
theorem block_rows4 : ∀ t : Fin cfg4.N, win4_3.index t (0 : Fin 2) = t.val ∧ win4_3.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- Every one of the 20 blocks of rows is some point's output block. -/
theorem block_rows_onto4 : ∀ b : Fin 20, ∃ t : Fin cfg4.N, t.val = b.val :=
  (by decide +kernel : ∀ b : Fin 20, ∃ t : Fin grid4.N, t.val = b.val)

/-- Entry (p, q) of point t's output block is entry (5000·t + p, q) of the output array. -/
theorem out_entry4 (t : Fin cfg4.N) (p : Fin 5000) (q : Fin 64) (hr : t.val * 5000 + p.val < 100000) :
    ((cfg4.win 3).blk t).view.emb (ix2 p q) = ix2 (⟨t.val * 5000 + p.val, hr⟩ : Fin 100000) q := by
  obtain ⟨e0, e1, -⟩ := block_rows4 t
  funext a; apply Fin.ext
  match a with
  | ⟨0, _⟩ => show win4_3.index t (0 : Fin 2) * 5000 + 1 * p.val = t.val * 5000 + p.val; omega
  | ⟨1, _⟩ => show win4_3.index t (1 : Fin 2) * 64 + 1 * q.val = q.val; omega

/-- Entry (p, q) of point t's feature block is entry (5000·t + p, q) of the feature array. -/
theorem feat_entry4 (t : Fin cfg4.N) (p : Fin 5000) (q : Fin 64) (hr : t.val * 5000 + p.val < 100000) :
    ((cfg4.win 0).blk t).view.emb (ix2 p q) = ix2 (⟨t.val * 5000 + p.val, hr⟩ : Fin 100000) q := by
  obtain ⟨-, -, e0, e1, -⟩ := block_rows4 t
  funext a; apply Fin.ext
  match a with
  | ⟨0, _⟩ => show win4_0.index t (0 : Fin 2) * 5000 + 1 * p.val = t.val * 5000 + p.val; omega
  | ⟨1, _⟩ => show win4_0.index t (1 : Fin 2) * 64 + 1 * q.val = q.val; omega

/-- Entry (p, 0) of point t's column block is entry (5000·t + p, 0) of the column. -/
theorem col_entry4 (t : Fin cfg4.N) (p : Fin 5000) (hr : t.val * 5000 + p.val < 100000) :
    ((cfg4.win 1).blk t).view.emb (ix2 p (0 : Fin 1)) = ix2 (⟨t.val * 5000 + p.val, hr⟩ : Fin 100000) (0 : Fin 1) := by
  obtain ⟨-, -, -, -, e0, e1, -⟩ := block_rows4 t
  funext a; apply Fin.ext
  match a with
  | ⟨0, _⟩ => show win4_1.index t (0 : Fin 2) * 5000 + 1 * p.val = t.val * 5000 + p.val; omega
  | ⟨1, _⟩ => show win4_1.index t (1 : Fin 2) * 1 + 1 * 0 = 0; omega

/-- Entry (0, q) of the bias row's block, at any point, is entry (0, q) of the bias row. -/
theorem bias_entry4 (t : Fin cfg4.N) (q : Fin 64) :
    ((cfg4.win 2).blk t).view.emb (ix2 (0 : Fin 1) q) = ix2 (0 : Fin 1) q := by
  obtain ⟨-, -, -, -, -, -, e0, e1⟩ := block_rows4 t
  funext a; apply Fin.ext
  match a with
  | ⟨0, _⟩ => show win4_2.index t (0 : Fin 2) * 1 + 1 * 0 = 0; omega
  | ⟨1, _⟩ => show win4_2.index t (1 : Fin 2) * 64 + 1 * q.val = q.val; omega

/-! ## What a point writes back -/

/-- A product plus a term, of equal factors and equal terms. -/
theorem scale_shift_congr4 {y y' s s' b b' : EReal} (hy : y = y') (hs : s = s') (hb : b = b') :
    y * s + b = y' * s' + b' := by rw [hy, hs, hb]

/-- What point t writes back is block t of the scaled and shifted array of the region's entry contents. -/
theorem flushed4_eq (c : Dev nD) (t : Fin cfg4.N) :
    (dat4 (F := Ideal) V c).flushed 3 t = ((cfg4.win 3).blk t).view.read (Elt Ideal)
      (Cert.Spec.scaleShift (a := 100000) (n := 64) (V c main_v58) (V c main_v60) (V c main_v59)) := by
  show (cfg4.win 3).cut (grid4.coords t) ((dat4 (F := Ideal) V c).after 3 t) = _
  rw [after4_3]
  unfold out4_3
  rw [View.canon_unit_zero zero_offsets4]
  simp only [View.ld_unit_zero (S := S5000x64) zero_offsets4, View.ld_unit_zero (S := S5000x1) zero_offsets4,
    View.ld_unit_zero (S := S1x64) zero_offsets4]
  refine funext fun (j : S5000x64.Idx) => ?_
  obtain ⟨p, q, rfl⟩ : ∃ (p : Fin 5000) (q : Fin 64), j = ix2 p q := ⟨j 0, j 1, eq_ix2 j⟩
  have hr : t.val * 5000 + p.val < 100000 := by
    have ht : t.val < 20 := t.isLt
    have hp : p.val < 5000 := p.isLt
    omega
  show k4_pay1 (F := Ideal) (iblk4 V c 0 t) (iblk4 V c 1 t) (iblk4 V c 2 t) (ix2 p q)
    = Cert.Spec.scaleShift (a := 100000) (n := 64) (V c main_v58) (V c main_v60) (V c main_v59)
        (((cfg4.win 3).blk t).view.emb (ix2 p q))
  refine (scaled_row_entry4 _ _ _ p q).trans ?_
  refine Eq.trans ?_ (congrArg (Cert.Spec.scaleShift (a := 100000) (n := 64) (V c main_v58) (V c main_v60) (V c main_v59))
    (out_entry4 t p q hr)).symm
  refine Eq.trans ?_ (Cert.Spec.scaleShift_apply (a := 100000) (n := 64) (V c main_v58) (V c main_v60) (V c main_v59) ⟨t.val * 5000 + p.val, hr⟩ q).symm
  exact scale_shift_congr4 (congrArg (V c main_v58) (feat_entry4 t p q hr)) (congrArg (V c main_v60) (col_entry4 t p hr))
    (congrArg (V c main_v59) (bias_entry4 t q))

/-! ## The blocks cover the array -/

/-- An index of the output array is in point t's block iff each coordinate is in the block's range on its axis. -/
theorem mem_out_block4 (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v61).slice (win4_3.rect t)).set ↔ _
  rw [View.set_slice_whole, Rect.mem_set_unit]
  exact Iff.rfl

/-- Row r of the output array lies in the block of point r / 5000, which is written back. -/
theorem out_covered4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ := block_rows_onto4 ⟨(i 0).val / 5000, by omega⟩
  have ht' : t.val = (i 0).val / 5000 := ht
  obtain ⟨e0, e1, -⟩ := block_rows4 t
  refine ⟨t, flush4_3 t, ?_⟩
  rw [mem_out_block4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- After region 4 its output array is its first input scaled row by row by the column, plus the bias row. -/
theorem arr4 (c : Dev nD) : (dat4 (F := Ideal) V c).arrAt 3 cfg4.N
    = Cert.Spec.scaleShift (a := 100000) (n := 64) (V c main_v58) (V c main_v60) (V c main_v59) :=
  (dat4 (F := Ideal) V c).arrAt_eq_of_cover 3 _ (fun t _ => flushed4_eq V c t) out_covered4

end Cert.KernelIdeal.Reg

end
-- ==== Proof.Reg5.lean ====
import proofs.«161072_j85074712199280_1_alg».proof.Proof.Gen.KernelIdeal.Frame
import proofs.«161072_j85074712199280_1_alg».proof.Proof.Spec
import proofs.«161072_j85074712199280_1_alg».proof.Proof.LibColumn
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem

/-! ## The body's arithmetic at one entry of the block -/

/-- Entry (p, q) of the stored block of the second normalisation: the feature block's entry times the column's entry
    of row p, plus the bias row's entry of lane q. Each cast is of a shape to itself; the column is spread along its
    row, the bias row down the rows. -/
theorem scaled_row_entry5 (x0 : Vec Ideal S5000x64 .f32) (x1 : Vec Ideal S5000x1 .f32) (x2 : Vec Ideal S1x64 .f32)
    (p : Fin 5000) (q : Fin 64) :
    k5_pay1 (F := Ideal) x0 x1 x2 (ix2 p q) = x0 (ix2 p q) * x1 (ix2 p (0 : Fin 1)) + x2 (ix2 (0 : Fin 1) q) := by
  unfold k5_pay1
  refine (addf_apply _ _ (ix2 p q)).trans ?_
  refine congrArg₂ (· + ·) ?_ ?_
  · refine (mulf_apply _ _ (ix2 p q)).trans ?_
    refine congrArg₂ (· * ·) ?_ ?_
    · rw [shapeCast_self]
    · refine (Cert.LibColumn.broadcastTo_a1_ab_apply _ _ p q).trans ?_
      rw [shapeCast_self]
  · refine (broadcastTo_1b_ab_apply _ _ p q).trans ?_
    rw [shapeCast_self]

variable (V : (c : Dev nD) → (b : Ref sig .tc) → Buf (Elt Ideal) ((c : Thread nD τ).loc b))

/-! ## Where each window's block sits at a point of the grid -/

theorem zero_offsets5 : (![0, 0] : Fin 2 → Nat) = fun _ => 0 := funext fun a => by fin_cases a <;> rfl

/-- The printed index maps of region 5, decided over the 20 points: at point t the output block, the feature block and
    the column block are all the t-th block of rows, at lane block 0; the bias row's one block is the whole row at
    every point. -/
theorem block_rows5 : ∀ t : Fin cfg5.N, win5_3.index t (0 : Fin 2) = t.val ∧ win5_3.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0 :=
  (by decide +kernel : ∀ t : Fin grid5.N, _)

/-- Every one of the 20 blocks of rows is some point's output block. -/
theorem block_rows_onto5 : ∀ b : Fin 20, ∃ t : Fin cfg5.N, t.val = b.val :=
  (by decide +kernel : ∀ b : Fin 20, ∃ t : Fin grid5.N, t.val = b.val)

/-- Entry (p, q) of point t's output block is entry (5000·t + p, q) of the output array. -/
theorem out_entry5 (t : Fin cfg5.N) (p : Fin 5000) (q : Fin 64) (hr : t.val * 5000 + p.val < 100000) :
    ((cfg5.win 3).blk t).view.emb (ix2 p q) = ix2 (⟨t.val * 5000 + p.val, hr⟩ : Fin 100000) q := by
  obtain ⟨e0, e1, -⟩ := block_rows5 t
  funext a; apply Fin.ext
  match a with
  | ⟨0, _⟩ => show win5_3.index t (0 : Fin 2) * 5000 + 1 * p.val = t.val * 5000 + p.val; omega
  | ⟨1, _⟩ => show win5_3.index t (1 : Fin 2) * 64 + 1 * q.val = q.val; omega

/-- Entry (p, q) of point t's feature block is entry (5000·t + p, q) of the feature array. -/
theorem feat_entry5 (t : Fin cfg5.N) (p : Fin 5000) (q : Fin 64) (hr : t.val * 5000 + p.val < 100000) :
    ((cfg5.win 0).blk t).view.emb (ix2 p q) = ix2 (⟨t.val * 5000 + p.val, hr⟩ : Fin 100000) q := by
  obtain ⟨-, -, e0, e1, -⟩ := block_rows5 t
  funext a; apply Fin.ext
  match a with
  | ⟨0, _⟩ => show win5_0.index t (0 : Fin 2) * 5000 + 1 * p.val = t.val * 5000 + p.val; omega
  | ⟨1, _⟩ => show win5_0.index t (1 : Fin 2) * 64 + 1 * q.val = q.val; omega

/-- Entry (p, 0) of point t's column block is entry (5000·t + p, 0) of the column. -/
theorem col_entry5 (t : Fin cfg5.N) (p : Fin 5000) (hr : t.val * 5000 + p.val < 100000) :
    ((cfg5.win 1).blk t).view.emb (ix2 p (0 : Fin 1)) = ix2 (⟨t.val * 5000 + p.val, hr⟩ : Fin 100000) (0 : Fin 1) := by
  obtain ⟨-, -, -, -, e0, e1, -⟩ := block_rows5 t
  funext a; apply Fin.ext
  match a with
  | ⟨0, _⟩ => show win5_1.index t (0 : Fin 2) * 5000 + 1 * p.val = t.val * 5000 + p.val; omega
  | ⟨1, _⟩ => show win5_1.index t (1 : Fin 2) * 1 + 1 * 0 = 0; omega

/-- Entry (0, q) of the bias row's block, at any point, is entry (0, q) of the bias row. -/
theorem bias_entry5 (t : Fin cfg5.N) (q : Fin 64) :
    ((cfg5.win 2).blk t).view.emb (ix2 (0 : Fin 1) q) = ix2 (0 : Fin 1) q := by
  obtain ⟨-, -, -, -, -, -, e0, e1⟩ := block_rows5 t
  funext a; apply Fin.ext
  match a with
  | ⟨0, _⟩ => show win5_2.index t (0 : Fin 2) * 1 + 1 * 0 = 0; omega
  | ⟨1, _⟩ => show win5_2.index t (1 : Fin 2) * 64 + 1 * q.val = q.val; omega

/-! ## What a point writes back -/

/-- A product plus a term, of equal factors and equal terms. -/
theorem scale_shift_congr5 {y y' s s' b b' : EReal} (hy : y = y') (hs : s = s') (hb : b = b') :
    y * s + b = y' * s' + b' := by rw [hy, hs, hb]

/-- What point t writes back is block t of the scaled and shifted array of the region's entry contents. -/
theorem flushed5_eq (c : Dev nD) (t : Fin cfg5.N) :
    (dat5 (F := Ideal) V c).flushed 3 t = ((cfg5.win 3).blk t).view.read (Elt Ideal)
      (Cert.Spec.scaleShift (a := 100000) (n := 64) (V c main_v71) (V c main_v72) (V c main_v73)) := by
  show (cfg5.win 3).cut (grid5.coords t) ((dat5 (F := Ideal) V c).after 3 t) = _
  rw [after5_3]
  unfold out5_3
  rw [View.canon_unit_zero zero_offsets5]
  simp only [View.ld_unit_zero (S := S5000x64) zero_offsets5, View.ld_unit_zero (S := S5000x1) zero_offsets5,
    View.ld_unit_zero (S := S1x64) zero_offsets5]
  refine funext fun (j : S5000x64.Idx) => ?_
  obtain ⟨p, q, rfl⟩ : ∃ (p : Fin 5000) (q : Fin 64), j = ix2 p q := ⟨j 0, j 1, eq_ix2 j⟩
  have hr : t.val * 5000 + p.val < 100000 := by
    have ht : t.val < 20 := t.isLt
    have hp : p.val < 5000 := p.isLt
    omega
  show k5_pay1 (F := Ideal) (iblk5 V c 0 t) (iblk5 V c 1 t) (iblk5 V c 2 t) (ix2 p q)
    = Cert.Spec.scaleShift (a := 100000) (n := 64) (V c main_v71) (V c main_v72) (V c main_v73)
        (((cfg5.win 3).blk t).view.emb (ix2 p q))
  refine (scaled_row_entry5 _ _ _ p q).trans ?_
  refine Eq.trans ?_ (congrArg (Cert.Spec.scaleShift (a := 100000) (n := 64) (V c main_v71) (V c main_v72) (V c main_v73))
    (out_entry5 t p q hr)).symm
  refine Eq.trans ?_ (Cert.Spec.scaleShift_apply (a := 100000) (n := 64) (V c main_v71) (V c main_v72) (V c main_v73) ⟨t.val * 5000 + p.val, hr⟩ q).symm
  exact scale_shift_congr5 (congrArg (V c main_v71) (feat_entry5 t p q hr)) (congrArg (V c main_v72) (col_entry5 t p hr))
    (congrArg (V c main_v73) (bias_entry5 t q))

/-! ## The blocks cover the array -/

/-- An index of the output array is in point t's block iff each coordinate is in the block's range on its axis. -/
theorem mem_out_block5 (t : Fin cfg5.N) (i : S100000x64.Idx) :
    i ∈ ((cfg5.win 3).blk t).view.set ↔ ∀ a : Fin 2, win5_3.index t a * S5000x64.size a ≤ (i a).val
      ∧ (i a).val < win5_3.index t a * S5000x64.size a + S5000x64.size a := by
  show i ∈ ((View.whole main_v74).slice (win5_3.rect t)).set ↔ _
  rw [View.set_slice_whole, Rect.mem_set_unit]
  exact Iff.rfl

/-- Row r of the output array lies in the block of point r / 5000, which is written back. -/
theorem out_covered5 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  obtain ⟨t, ht⟩ := block_rows_onto5 ⟨(i 0).val / 5000, by omega⟩
  have ht' : t.val = (i 0).val / 5000 := ht
  obtain ⟨e0, e1, -⟩ := block_rows5 t
  refine ⟨t, flush5_3 t, ?_⟩
  rw [mem_out_block5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- After region 5 its output array is its first input scaled row by row by the column, plus the bias row. -/
theorem arr5 (c : Dev nD) : (dat5 (F := Ideal) V c).arrAt 3 cfg5.N
    = Cert.Spec.scaleShift (a := 100000) (n := 64) (V c main_v71) (V c main_v72) (V c main_v73) :=
  (dat5 (F := Ideal) V c).arrAt_eq_of_cover 3 _ (fun t _ => flushed5_eq V c t) out_covered5

end Cert.KernelIdeal.Reg

end
-- ==== Proof.Chain.lean ====
/-
  The buffer contents at each boundary of the kernel's @main, read as the reference's stages.
  The kernel's host code and the reference apply the same gathers, scatter-adds and degree computations; between them each
  region computes one product or one row scaling, which is the reference's `dot_general` or its multiply-and-add
  (Bridge.lean). So every array the kernel's @main holds at a boundary is a stage of the reference's own computation of
  the same argument arrays, and the last region's output is the reference's result.
-/
import proofs.«161072_j85074712199280_1_alg».proof.Proof.Gen.KernelIdeal.Frame
import proofs.«161072_j85074712199280_1_alg».proof.Proof.RefRead
import proofs.«161072_j85074712199280_1_alg».proof.Proof.Spec
import proofs.«161072_j85074712199280_1_alg».proof.Proof.Host
import proofs.«161072_j85074712199280_1_alg».proof.Proof.Bridge
import proofs.«161072_j85074712199280_1_alg».proof.Proof.Reg0
import proofs.«161072_j85074712199280_1_alg».proof.Proof.Reg1
import proofs.«161072_j85074712199280_1_alg».proof.Proof.Reg2
import proofs.«161072_j85074712199280_1_alg».proof.Proof.Reg3
import proofs.«161072_j85074712199280_1_alg».proof.Proof.Reg4
import proofs.«161072_j85074712199280_1_alg».proof.Proof.Reg5
import Idealize.ShloMosaic.PureOps.Ideal

set_option maxRecDepth 16384

noncomputable section

namespace Cert.KernelIdeal.Chain

open Cert.KernelIdeal Cert.KernelIdeal.Gen Cert.ReferenceIdeal.ReadP Cert.KernelIdeal.Host
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 0 entered -/

theorem at4 : Carried (W4 m ρ c) (m ((c : Thread nD τ).loc main_arg1)) (m ((c : Thread nD τ).loc main_arg3)) (m ((c : Thread nD τ).loc main_arg4)) (m ((c : Thread nD τ).loc main_arg5)) :=
  Carried.entry (W := W0 m ρ c) rfl rfl rfl rfl

theorem at4_arg0 : V4 m ρ c main_arg0 = (m ((c : Thread nD τ).loc main_arg0)) := entry_arg0 (W0 m ρ c)
theorem at4_arg2 : V4 m ρ c main_arg2 = (m ((c : Thread nD τ).loc main_arg2)) := entry_arg2 (W0 m ρ c)

/-! ## Layer 1 -/

/-- Region 0 leaves the reference's first product. -/
theorem at5_v21 : W5 m ρ c (Proc.devRef .tc main_v21) = val_main_v4 (m ((c : Thread nD τ).loc main_arg0)) (m ((c : Thread nD τ).loc main_arg2)) := by
  refine (W5_arr m ρ c 2).trans ((Cert.KernelIdeal.Reg.arr0 (V4 m ρ) c).trans ?_)
  rw [at4_arg0, at4_arg2]
  exact Cert.Bridge.product1 _ _

theorem at5 : Carried (W5 m ρ c) (m ((c : Thread nD τ).loc main_arg1)) (m ((c : Thread nD τ).loc main_arg3)) (m ((c : Thread nD τ).loc main_arg4)) (m ((c : Thread nD τ).loc main_arg5)) := by
  unfold W5; exact (at4 m ρ c).region0 c _

theorem at6 : Carried (W6 m ρ c) (m ((c : Thread nD τ).loc main_arg1)) (m ((c : Thread nD τ).loc main_arg3)) (m ((c : Thread nD τ).loc main_arg4)) (m ((c : Thread nD τ).loc main_arg5)) := (at5 m ρ c).host1

theorem at6_v31 : V6 m ρ c main_v31 = val_main_v31 (m ((c : Thread nD τ).loc main_arg0)) (m ((c : Thread nD τ).loc main_arg1)) (m ((c : Thread nD τ).loc main_arg2)) :=
  host1_v31 (W5 m ρ c) _ _ _ (at5 m ρ c).v1 (at5 m ρ c).v3 (at5_v21 m ρ c)
theorem at6_v32 : V6 m ρ c main_v32 = broadcastInDim S1x128 ![] bcast_S_S1x128 (constant (F := Ideal) S_ .f32 0x00000000#32) :=
  host1_v32 (W5 m ρ c)
theorem at6_v33 : V6 m ρ c main_v33 = shapeCast S100000x1 (val_main_v21 (m ((c : Thread nD τ).loc main_arg1))) shapeCasts_S100000_S100000x1 :=
  host1_v33 (W5 m ρ c) _ (at5 m ρ c).v20

/-- Region 1 leaves the reference's hyperedge means. -/
theorem at7_v34 : W7 m ρ c (Proc.devRef .tc main_v34) = val_main_v34 (m ((c : Thread nD τ).loc main_arg0)) (m ((c : Thread nD τ).loc main_arg1)) (m ((c : Thread nD τ).loc main_arg2)) := by
  refine (W7_arr m ρ c 3).trans ((Cert.KernelIdeal.Reg.arr1 (V6 m ρ) c).trans ?_)
  rw [at6_v31, at6_v32, at6_v33]
  exact Cert.Bridge.edgeMean1 _ _ _ _ _

theorem at7 : Carried (W7 m ρ c) (m ((c : Thread nD τ).loc main_arg1)) (m ((c : Thread nD τ).loc main_arg3)) (m ((c : Thread nD τ).loc main_arg4)) (m ((c : Thread nD τ).loc main_arg5)) := by
  unfold W7; exact (at6 m ρ c).region1 c _

theorem at8 : Carried (W8 m ρ c) (m ((c : Thread nD τ).loc main_arg1)) (m ((c : Thread nD τ).loc main_arg3)) (m ((c : Thread nD τ).loc main_arg4)) (m ((c : Thread nD τ).loc main_arg5)) := (at7 m ρ c).host2

theorem at8_v44 : V8 m ρ c main_v44 = val_main_v44 (m ((c : Thread nD τ).loc main_arg0)) (m ((c : Thread nD τ).loc main_arg1)) (m ((c : Thread nD τ).loc main_arg2)) :=
  host2_v44 (W7 m ρ c) _ _ _ (at7 m ρ c).v1 (at7 m ρ c).v3 (at7_v34 m ρ c)
theorem at8_v45 : V8 m ρ c main_v45 = shapeCast S100000x1 (val_main_v16 (m ((c : Thread nD τ).loc main_arg1))) shapeCasts_S100000_S100000x1 :=
  host2_v45 (W7 m ρ c) _ (at7 m ρ c).v15
theorem at8_v46 : V8 m ρ c main_v46 = shapeCast S1x128 (m ((c : Thread nD τ).loc main_arg3)) shapeCasts_S128_S1x128 :=
  host2_v46 (W7 m ρ c) _ (at7 m ρ c).a3

/-- Region 2 leaves the reference's hidden features. -/
theorem at9_v47 : W9 m ρ c (Proc.devRef .tc main_v47) = val_main_v51 (m ((c : Thread nD τ).loc main_arg0)) (m ((c : Thread nD τ).loc main_arg1)) (m ((c : Thread nD τ).loc main_arg2)) (m ((c : Thread nD τ).loc main_arg3)) := by
  refine (W9_arr m ρ c 3).trans ((Cert.KernelIdeal.Reg.arr2 (V8 m ρ) c).trans ?_)
  rw [at8_v44, at8_v45, at8_v46]
  exact Cert.Bridge.hidden _ _ _ _ _ _

theorem at9 : Carried (W9 m ρ c) (m ((c : Thread nD τ).loc main_arg1)) (m ((c : Thread nD τ).loc main_arg3)) (m ((c : Thread nD τ).loc main_arg4)) (m ((c : Thread nD τ).loc main_arg5)) := by
  unfold W9; exact (at8 m ρ c).region2 c _

/-! ## Layer 2 -/

theorem at9_arg4 : V9 m ρ c main_arg4 = (m ((c : Thread nD τ).loc main_arg4)) := (at9 m ρ c).a4

/-- Region 3 leaves the reference's second product. -/
theorem at10_v48 : W10 m ρ c (Proc.devRef .tc main_v48) = val_main_v52 (m ((c : Thread nD τ).loc main_arg0)) (m ((c : Thread nD τ).loc main_arg1)) (m ((c : Thread nD τ).loc main_arg2)) (m ((c : Thread nD τ).loc main_arg3)) (m ((c : Thread nD τ).loc main_arg4)) := by
  refine (W10_arr m ρ c 2).trans ((Cert.KernelIdeal.Reg.arr3 (V9 m ρ) c).trans ?_)
  rw [show V9 m ρ c main_v47 = _ from at9_v47 m ρ c, at9_arg4]
  exact Cert.Bridge.product2 _ _ _ _ _

/-- Region 3 writes its own output only; its weight window leaves the second weight as it was. -/
theorem at10 : Carried (W10 m ρ c) (m ((c : Thread nD τ).loc main_arg1)) (m ((c : Thread nD τ).loc main_arg3)) (m ((c : Thread nD τ).loc main_arg4)) (m ((c : Thread nD τ).loc main_arg5)) := by
  have h := at9 m ρ c
  unfold W10
  exact ⟨(Pipeline.withArrays_of_ne spec3 c _ _ main_v1 (by decide)).trans h.v1, (Pipeline.withArrays_of_ne spec3 c _ _ main_v3 (by decide)).trans h.v3,
    (Pipeline.withArrays_of_ne spec3 c _ _ main_v15 (by decide)).trans h.v15, (Pipeline.withArrays_of_ne spec3 c _ _ main_v20 (by decide)).trans h.v20,
    (Pipeline.withArrays_of_ne spec3 c _ _ main_arg3 (by decide)).trans h.a3,
    (Pipeline.withArrays_arr spec3 launch3.win.arr_inj c _ _ 1).trans (((dat3 (V9 m ρ) c).arrAt_in 1 rfl _).trans ((A_eq3 (V9 m ρ) c 1).trans h.a4)),
    (Pipeline.withArrays_of_ne spec3 c _ _ main_arg5 (by decide)).trans h.a5⟩

theorem at11 : Carried (W11 m ρ c) (m ((c : Thread nD τ).loc main_arg1)) (m ((c : Thread nD τ).loc main_arg3)) (m ((c : Thread nD τ).loc main_arg4)) (m ((c : Thread nD τ).loc main_arg5)) := (at10 m ρ c).host4

theorem at11_v58 : V11 m ρ c main_v58 = val_main_v79 (m ((c : Thread nD τ).loc main_arg0)) (m ((c : Thread nD τ).loc main_arg1)) (m ((c : Thread nD τ).loc main_arg2)) (m ((c : Thread nD τ).loc main_arg3)) (m ((c : Thread nD τ).loc main_arg4)) :=
  host4_v58 (W10 m ρ c) _ _ _ _ _ (at10 m ρ c).v1 (at10 m ρ c).v3 (at10_v48 m ρ c)
theorem at11_v59 : V11 m ρ c main_v59 = broadcastInDim S1x64 ![] bcast_S_S1x64 (constant (F := Ideal) S_ .f32 0x00000000#32) :=
  host4_v59 (W10 m ρ c)
theorem at11_v60 : V11 m ρ c main_v60 = shapeCast S100000x1 (val_main_v21 (m ((c : Thread nD τ).loc main_arg1))) shapeCasts_S100000_S100000x1 :=
  host4_v60 (W10 m ρ c) _ (at10 m ρ c).v20

/-- Region 4 leaves the reference's second-layer hyperedge means. -/
theorem at12_v61 : W12 m ρ c (Proc.devRef .tc main_v61) = val_main_v82 (m ((c : Thread nD τ).loc main_arg0)) (m ((c : Thread nD τ).loc main_arg1)) (m ((c : Thread nD τ).loc main_arg2)) (m ((c : Thread nD τ).loc main_arg3)) (m ((c : Thread nD τ).loc main_arg4)) := by
  refine (W12_arr m ρ c 3).trans ((Cert.KernelIdeal.Reg.arr4 (V11 m ρ) c).trans ?_)
  rw [at11_v58, at11_v59, at11_v60]
  exact Cert.Bridge.edgeMean2 _ _ _ _ _ _ _

theorem at12 : Carried (W12 m ρ c) (m ((c : Thread nD τ).loc main_arg1)) (m ((c : Thread nD τ).loc main_arg3)) (m ((c : Thread nD τ).loc main_arg4)) (m ((c : Thread nD τ).loc main_arg5)) := by
  unfold W12; exact (at11 m ρ c).region4 c _

theorem at13_v71 : V13 m ρ c main_v71 = val_main_v92 (m ((c : Thread nD τ).loc main_arg0)) (m ((c : Thread nD τ).loc main_arg1)) (m ((c : Thread nD τ).loc main_arg2)) (m ((c : Thread nD τ).loc main_arg3)) (m ((c : Thread nD τ).loc main_arg4)) :=
  host5_v71 (W12 m ρ c) _ _ _ _ _ (at12 m ρ c).v1 (at12 m ρ c).v3 (at12_v61 m ρ c)
theorem at13_v72 : V13 m ρ c main_v72 = shapeCast S100000x1 (val_main_v16 (m ((c : Thread nD τ).loc main_arg1))) shapeCasts_S100000_S100000x1 :=
  host5_v72 (W12 m ρ c) _ (at12 m ρ c).v15
theorem at13_v73 : V13 m ρ c main_v73 = shapeCast S1x64 (m ((c : Thread nD τ).loc main_arg5)) shapeCasts_S64_S1x64 :=
  host5_v73 (W12 m ρ c) _ (at12 m ρ c).a5

/-- THE RESULT: the last region leaves the reference's result stage of the argument arrays. -/
theorem result : W14 m ρ c (Proc.devRef .tc main_v74)
    = val_main_v98 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W14_arr m ρ c 3).trans ((Cert.KernelIdeal.Reg.arr5 (V13 m ρ) c).trans ?_)
  rw [at13_v71, at13_v72, at13_v73]
  exact Cert.Bridge.result _ _ _ _ _ _ _ _

end Cert.KernelIdeal.Chain

end
-- ==== Proof.lean ====
/-
  Two layers of hypergraph convolution, D⁻¹ H B⁻¹ Hᵀ (X W) + b with a rectifier between them, as a Pallas program of six
  regions against jnp.

  Both programs slice the two rows of the incidence array, count node and hyperedge degrees by a scatter-add of ones, take
  the reciprocal of each positive degree (zero elsewhere), and in each layer gather the projected features along the
  incidences, sum them per hyperedge, scale by the reciprocal hyperedge degree, gather back, sum per node and scale by the
  reciprocal node degree, adding the bias. The kernel computes the two projections X W and the four row scalings
  y · s + b (the first of each layer with a zero bias row, the second of layer 1 rectified) in tiled regions over blocks of
  5000 rows, its operands narrowed to bf16 before the product, which at the ideal values changes nothing; the reference
  computes them by `dot_general`, a multiply by a broadcast column and an add of a broadcast row. Index by index the
  regions' functions are the reference's (Bridge.lean), every host operation between them is the reference's own
  (Host.lean), so the kernel's result array is the reference's result stage of the same arguments (Chain.lean). No sum
  is reordered and nothing is cancelled, so the finiteness of the inputs is not used.
-/
import proofs.«161072_j85074712199280_1_alg».proof.Defs
import proofs.«161072_j85074712199280_1_alg».proof.Proof.Gen.Kernel
import proofs.«161072_j85074712199280_1_alg».proof.Proof.Gen.Kernel.Skeleton
import proofs.«161072_j85074712199280_1_alg».proof.Proof.Gen.Kernel.Launch
import proofs.«161072_j85074712199280_1_alg».proof.Proof.Gen.Kernel.Points
import proofs.«161072_j85074712199280_1_alg».proof.Proof.Gen.Kernel.Frame
import proofs.«161072_j85074712199280_1_alg».proof.Proof.Gen.KernelIdeal
import proofs.«161072_j85074712199280_1_alg».proof.Proof.Gen.KernelIdeal.Skeleton
import proofs.«161072_j85074712199280_1_alg».proof.Proof.Gen.KernelIdeal.Launch
import proofs.«161072_j85074712199280_1_alg».proof.Proof.Gen.KernelIdeal.Points
import proofs.«161072_j85074712199280_1_alg».proof.Proof.Gen.KernelIdeal.Frame
import proofs.«161072_j85074712199280_1_alg».proof.Proof.Gen.ReferenceIdeal
import proofs.«161072_j85074712199280_1_alg».proof.Proof.Gen.Pre_finite_inputs
import proofs.«161072_j85074712199280_1_alg».proof.Proof.RunNamed
import proofs.«161072_j85074712199280_1_alg».proof.Proof.RefRun
import proofs.«161072_j85074712199280_1_alg».proof.Proof.RefRead
import proofs.«161072_j85074712199280_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame of its six regions. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing in this kernel. -/
theorem preserves : Cert.preserves_Kernel_KernelIdeal := trivial

/-- At the ideal values the kernel's run ends with its result array at the reference's result stage of its own arguments
    (the run with the result named, then the chain of boundary contents), and the reference's run ends at that stage of
    arguments that agree. -/
theorem algebraic : Cert.algebraic_KernelIdeal_ReferenceIdeal := by
  intro m ρ m' ρ' _ hagree
  refine ⟨fun c => Cert.ReferenceIdeal.ReadP.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result m ρ c), (h c).2⟩) (Cert.KernelIdeal.RunNamed.run_named m ρ)
  · refine (θ_run Cert.ReferenceIdeal.defs _ _).mono (fun _ h c => ⟨(h c).1.trans ?_, (h c).2⟩) (Cert.ReferenceIdeal.ValueP.run (F := Ideal) m' ρ')
    rw [Cert.ReferenceIdeal.ReadP.val_main_v98_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
   frame_kernel, frame_kernelIdeal, frame_referenceIdeal, preserves, algebraic⟩

end Cert.Proof

end
